-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000 : Shape := ⟨1, ![600000]⟩
abbrev S128 : Shape := ⟨1, ![128]⟩
abbrev S64x128 : Shape := ⟨2, ![64, 128]⟩
abbrev S64 : Shape := ⟨1, ![64]⟩
abbrev S_ : Shape := ⟨0, ![]⟩
abbrev S1x600000 : Shape := ⟨2, ![1, 600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  slices_S2x600000_S1x600000_0_0 : S2x600000.Slices ![0, 0] S1x600000
  shapeCasts_S1x600000_S600000 : S1x600000.ShapeCasts S600000

variable [Facts]

def fn_part2 {F : FTy → Type} [FloatOps F] (main_v29 : IVec S_ 1) (main_v33 : IVec S600000 1) (main_c_11 : IVec S_ 1) : IVec S_ 1 :=
  let main_v34 : IVec S_ 1 := (fun x v => Host.reduce IntOp.andi x v reducesTo_S600000_S_d0 h_S_) main_v33 main_c_11
  let main_v35 : IVec S_ 1 := andi main_v29 main_v34
  main_v35

def fn_part1 {F : FTy → Type} [FloatOps F] (main_arg1 : IVec S2x600000 32) (main_arg5 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : IVec S1x600000 32 := (extractStridedSlice S1x600000 ![0, 0] · slices_S2x600000_S1x600000_0_0) main_arg1
  let main_v25 : IVec S600000 32 := shapeCast S600000 main_v24 shapeCasts_S1x600000_S600000
  let main_c_8 : IVec S_ 32 := constantI S_ 32 0#32
  let main_v26 : IVec S600000 32 := broadcastInDim S600000 ![] bcast_S_S600000 main_c_8
  let main_v27 : IVec S600000 1 := cmpi .sge main_v25 main_v26
  let main_c_9 : IVec S_ 1 := constantI S_ 1 1#1
  let main_v28 : IVec S_ 1 := (fun x v => Host.reduce IntOp.andi x v reducesTo_S600000_S_d0 h_S_) main_v27 main_c_9
  let main_v29 : IVec S_ 1 := andi main_v23 main_v28
  let main_v30 : IVec S1x600000 32 := (extractStridedSlice S1x600000 ![0, 0] · slices_S2x600000_S1x600000_0_0) main_arg1
  let main_v31 : IVec S600000 32 := shapeCast S600000 main_v30 shapeCasts_S1x600000_S600000
  let main_c_10 : IVec S_ 32 := constantI S_ 32 100000#32
  let main_v32 : IVec S600000 32 := broadcastInDim S600000 ![] bcast_S_S600000 main_c_10
  let main_v33 : IVec S600000 1 := cmpi .slt main_v31 main_v32
  let main_c_11 : IVec S_ 1 := constantI S_ 1 1#1
  fn_part2 (F := F) main_v29 main_v33 main_c_11

def fn {F : FTy → Type} [FloatOps F] (main_arg0 : FVec F S100000x128 .f32) (main_arg1 : IVec S2x600000 32) (main_arg2 : FVec F S600000 .f32) (main_arg3 : FVec F S128 .f32) (main_arg4 : FVec F S64x128 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg1 main_arg5 main_v13 main_v16
-- ==== Kernel.lean ====
abbrev S100000x128 : Shape := ⟨2, ![100000, 128]⟩
abbrev S2x600000 : Shape := ⟨2, ![2, 600000]⟩
abbrev S600000 : Shape := ⟨1, ![600000]⟩
abbrev S128 : Shape := ⟨1, ![128]⟩
abbrev S64x128 : Shape := ⟨2, ![64, 128]⟩
abbrev S64 : Shape := ⟨1, ![64]⟩
abbrev S_ : Shape := ⟨0, ![]⟩
abbrev S1x128 : Shape := ⟨2, ![1, 128]⟩
abbrev S5000x128 : Shape := ⟨2, ![5000, 128]⟩
abbrev S1x600000 : Shape := ⟨2, ![1, 600000]⟩
abbrev S100000 : Shape := ⟨1, ![100000]⟩
abbrev S700000 : Shape := ⟨1, ![700000]⟩
abbrev S700000x1 : Shape := ⟨2, ![700000, 1]⟩
abbrev S1 : Shape := ⟨1, ![1]⟩
abbrev S1x1 : Shape := ⟨2, ![1, 1]⟩
abbrev S700000x128 : Shape := ⟨2, ![700000, 128]⟩
abbrev S4000x128 : Shape := ⟨2, ![4000, 128]⟩
abbrev S4000x1 : Shape := ⟨2, ![4000, 1]⟩
abbrev S128x64 : Shape := ⟨2, ![128, 64]⟩
abbrev S1x64 : Shape := ⟨2, ![1, 64]⟩
abbrev S100000x64 : Shape := ⟨2, ![100000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 142
  | .vmem => 23
  | .smem => 0
  | _ => 0

abbrev hbmTy0_0 (i : Nat) : BufTy := match i % 128 with
  | 0 => ⟨S100000x128, .f32⟩
  | 1 => ⟨S2x600000, .i32⟩
  | 2 => ⟨S600000, .f32⟩
  | 3 => ⟨S128, .f32⟩
  | 4 => ⟨S64x128, .f32⟩
  | 5 => ⟨S64, .f32⟩
  | 6 => ⟨S600000, .f32⟩
  | 7 => ⟨S_, .f32⟩
  | 8 => ⟨S600000, .f32⟩
  | 9 => ⟨S600000, .i1⟩
  | 10 => ⟨S600000, .f32⟩
  | 11 => ⟨S600000, .f32⟩
  | 12 => ⟨S600000, .f32⟩
  | 13 => ⟨S_, .f32⟩
  | 14 => ⟨S600000, .f32⟩
  | 15 => ⟨S600000, .f32⟩
  | 16 => ⟨S_, .f32⟩
  | 17 => ⟨S600000, .f32⟩
  | 18 => ⟨S600000, .f32⟩
  | 19 => ⟨S600000, .f32⟩
  | 20 => ⟨S128, .f32⟩
  | 21 => ⟨S_, .f32⟩
  | 22 => ⟨S128, .f32⟩
  | 23 => ⟨S128, .i1⟩
  | 24 => ⟨S128, .f32⟩
  | 25 => ⟨S128, .f32⟩
  | 26 => ⟨S128, .f32⟩
  | 27 => ⟨S_, .f32⟩
  | 28 => ⟨S128, .f32⟩
  | 29 => ⟨S128, .f32⟩
  | 30 => ⟨S_, .f32⟩
  | 31 => ⟨S128, .f32⟩
  | 32 => ⟨S128, .f32⟩
  | 33 => ⟨S128, .f32⟩
  | 34 => ⟨S1x128, .f32⟩
  | 35 => ⟨S100000x128, .f32⟩
  | 36 => ⟨S1x600000, .i32⟩
  | 37 => ⟨S600000, .i32⟩
  | 38 => ⟨S1x600000, .i32⟩
  | 39 => ⟨S600000, .i32⟩
  | 40 => ⟨S100000, .i32⟩
  | 41 => ⟨S700000, .i32⟩
  | 42 => ⟨S700000, .i32⟩
  | 43 => ⟨S_, .f32⟩
  | 44 => ⟨S100000, .f32⟩
  | 45 => ⟨S700000, .f32⟩
  | 46 => ⟨S_, .f32⟩
  | 47 => ⟨S100000, .f32⟩
  | 48 => ⟨S700000x1, .i32⟩
  | 49 => ⟨S100000, .f32⟩
  | 50 => ⟨S_, .f32⟩
  | 51 => ⟨S100000, .f32⟩
  | 52 => ⟨S100000, .i1⟩
  | 53 => ⟨S_, .f32⟩
  | 54 => ⟨S100000, .f32⟩
  | 55 => ⟨S100000, .f32⟩
  | 56 => ⟨S100000, .f32⟩
  | 57 => ⟨S_, .f32⟩
  | 58 => ⟨S_, .f32⟩
  | 59 => ⟨S100000, .f32⟩
  | 60 => ⟨S100000, .f32⟩
  | 61 => ⟨S_, .i32⟩
  | 62 => ⟨S700000, .i32⟩
  | 63 => ⟨S700000, .i1⟩
  | 64 => ⟨S_, .i32⟩
  | 65 => ⟨S700000, .i32⟩
  | 66 => ⟨S700000, .i32⟩
  | 67 => ⟨S700000, .i32⟩
  | 68 => ⟨S700000x1, .i32⟩
  | 69 => ⟨S700000, .f32⟩
  | 70 => ⟨S700000, .f32⟩
  | 71 => ⟨S_, .i32⟩
  | 72 => ⟨S700000, .i32⟩
  | 73 => ⟨S700000, .i1⟩
  | 74 => ⟨S_, .i32⟩
  | 75 => ⟨S700000, .i32⟩
  | 76 => ⟨S700000, .i32⟩
  | 77 => ⟨S700000, .i32⟩
  | 78 => ⟨S700000x1, .i32⟩
  | 79 => ⟨S700000, .f32⟩
  | 80 => ⟨S700000, .f32⟩
  | 81 => ⟨S_, .i32⟩
  | 82 => ⟨S700000, .i32⟩
  | 83 => ⟨S700000, .i1⟩
  | 84 => ⟨S_, .i32⟩
  | 85 => ⟨S700000, .i32⟩
  | 86 => ⟨S700000, .i32⟩
  | 87 => ⟨S700000, .i32⟩
  | 88 => ⟨S700000x1, .i32⟩
  | 89 => ⟨S1, .i32⟩
  | 90 => ⟨S_, .i32⟩
  | 91 => ⟨S700000x1, .i32⟩
  | 92 => ⟨S700000x1, .i1⟩
  | 93 => ⟨S1x1, .i32⟩
  | 94 => ⟨S700000x1, .i32⟩
  | 95 => ⟨S700000x1, .i1⟩
  | 96 => ⟨S700000x1, .i1⟩
  | 97 => ⟨S_, .i1⟩
  | 98 => ⟨S700000, .i1⟩
  | 99 => ⟨S700000x128, .f32⟩
  | 100 => ⟨S700000x128, .i1⟩
  | 101 => ⟨S_, .f32⟩
  | 102 => ⟨S700000x128, .f32⟩
  | 103 => ⟨S700000x128, .f32⟩
  | 104 => ⟨S700000x1, .f32⟩
  | 105 => ⟨S700000x128, .f32⟩
  | 106 => ⟨S_, .f32⟩
  | 107 => ⟨S100000x128, .f32⟩
  | 108 => ⟨S700000x1, .i32⟩
  | 109 => ⟨S100000x128, .f32⟩
  | 110 => ⟨S_, .i32⟩
  | 111 => ⟨S700000, .i32⟩
  | 112 => ⟨S700000, .i1⟩
  | 113 => ⟨S_, .i32⟩
  | 114 => ⟨S700000, .i32⟩
  | 115 => ⟨S700000, .i32⟩
  | 116 => ⟨S700000, .i32⟩
  | 117 => ⟨S700000x1, .i32⟩
  | 118 => ⟨S1, .i32⟩
  | 119 => ⟨S_, .i32⟩
  | 120 => ⟨S700000x1, .i32⟩
  | 121 => ⟨S700000x1, .i1⟩
  | 122 => ⟨S1x1, .i32⟩
  | 123 => ⟨S700000x1, .i32⟩
  | 124 => ⟨S700000x1, .i1⟩
  | 125 => ⟨S700000x1, .i1⟩
  | 126 => ⟨S_, .i1⟩
  | 127 => ⟨S700000, .i1⟩
  | _ => ⟨S100000x128, .f32⟩

abbrev hbmTy0_1 (i : Nat) : BufTy := match i % 128 with
  | 0 => ⟨S700000x128, .f32⟩
  | 1 => ⟨S700000x128, .i1⟩
  | 2 => ⟨S_, .f32⟩
  | 3 => ⟨S700000x128, .f32⟩
  | 4 => ⟨S700000x128, .f32⟩
  | 5 => ⟨S700000x1, .f32⟩
  | 6 => ⟨S700000x128, .f32⟩
  | 7 => ⟨S_, .f32⟩
  | 8 => ⟨S100000x128, .f32⟩
  | 9 => ⟨S700000x1, .i32⟩
  | 10 => ⟨S100000x128, .f32⟩
  | 11 => ⟨S128x64, .f32⟩
  | 12 => ⟨S1x64, .f32⟩
  | 13 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S5000x128, .f32⟩
  | .local _ .vmem, ⟨4, _⟩ => ⟨S5000x128, .f32⟩
  | .local _ .vmem, ⟨5, _⟩ => ⟨S4000x128, .f32⟩
  | .local _ .vmem, ⟨6, _⟩ => ⟨S4000x128, .f32⟩
  | .local _ .vmem, ⟨7, _⟩ => ⟨S4000x1, .f32⟩
  | .local _ .vmem, ⟨8, _⟩ => ⟨S4000x1, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x1, .f32⟩
  | .local _ .vmem, ⟨14, _⟩ => ⟨S4000x1, .f32⟩
  | .local _ .vmem, ⟨15, _⟩ => ⟨S4000x128, .f32⟩
  | .local _ .vmem, ⟨16, _⟩ => ⟨S4000x128, .f32⟩
  | .local _ .vmem, ⟨17, _⟩ => ⟨S5000x128, .f32⟩
  | .local _ .vmem, ⟨18, _⟩ => ⟨S5000x128, .f32⟩
  | .local _ .vmem, ⟨19, _⟩ => ⟨S128x64, .f32⟩
  | .local _ .vmem, ⟨20, _⟩ => ⟨S1x64, .f32⟩
  | .local _ .vmem, ⟨21, _⟩ => ⟨S5000x64, .f32⟩
  | .local _ .vmem, ⟨22, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_call0_v0 : Ref sig .tc := ⟨.hbm, 58, rfl⟩
abbrev main_call0_v1 : Ref sig .tc := ⟨.hbm, 59, rfl⟩
abbrev main_v41 : Ref sig .tc := ⟨.hbm, 60, rfl⟩
abbrev main_c : Ref sig .tc := ⟨.hbm, 61, rfl⟩
abbrev main_v42 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_c_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_c : Ref sig .tc := ⟨.hbm, 81, rfl⟩
abbrev main_call1_v0 : Ref sig .tc := ⟨.hbm, 82, rfl⟩
abbrev main_call1_v1 : Ref sig .tc := ⟨.hbm, 83, rfl⟩
abbrev main_call1_c_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_c_1 : Ref sig .tc := ⟨.hbm, 89, rfl⟩
abbrev main_call1_c_2 : Ref sig .tc := ⟨.hbm, 90, rfl⟩
abbrev main_call1_v6 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_call1_c_3 : Ref sig .tc := ⟨.hbm, 97, rfl⟩
abbrev main_call1_v12 : Ref sig .tc := ⟨.hbm, 98, rfl⟩
abbrev main_call1_v13 : Ref sig .tc := ⟨.hbm, 99, rfl⟩
abbrev main_call1_v14 : Ref sig .tc := ⟨.hbm, 100, rfl⟩
abbrev main_call1_cst : Ref sig .tc := ⟨.hbm, 101, rfl⟩
abbrev main_call1_v15 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_cst_13 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_call2_c : Ref sig .tc := ⟨.hbm, 110, rfl⟩
abbrev main_call2_v0 : Ref sig .tc := ⟨.hbm, 111, rfl⟩
abbrev main_call2_v1 : Ref sig .tc := ⟨.hbm, 112, rfl⟩
abbrev main_call2_c_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_c_1 : Ref sig .tc := ⟨.hbm, 118, rfl⟩
abbrev main_call2_c_2 : Ref sig .tc := ⟨.hbm, 119, rfl⟩
abbrev main_call2_v6 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_c_3 : Ref sig .tc := ⟨.hbm, 126, rfl⟩
abbrev main_call2_v12 : Ref sig .tc := ⟨.hbm, 127, rfl⟩
abbrev main_call2_v13 : Ref sig .tc := ⟨.hbm, 128, rfl⟩
abbrev main_call2_v14 : Ref sig .tc := ⟨.hbm, 129, rfl⟩
abbrev main_call2_cst : Ref sig .tc := ⟨.hbm, 130, rfl⟩
abbrev main_call2_v15 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_cst_14 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![175], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![175], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S600000 : S_.BroadcastsInDim S600000 (![] : Fin 0 → Fin S600000.rank)
  bcast_S_S128 : S_.BroadcastsInDim S128 (![] : Fin 0 → Fin S128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S100000 : S_.BroadcastsInDim S100000 (![] : Fin 0 → Fin S100000.rank)
  bcast_S700000_S700000x1_0 : S700000.BroadcastsInDim S700000x1 (![0] : Fin 1 → Fin S700000x1.rank)
  bcast_S_S700000 : S_.BroadcastsInDim S700000 (![] : Fin 0 → Fin S700000.rank)
  bcast_S_S700000x1 : S_.BroadcastsInDim S700000x1 (![] : Fin 0 → Fin S700000x1.rank)
  bcast_S1_S1x1_1 : S1.BroadcastsInDim S1x1 (![1] : Fin 1 → Fin S1x1.rank)
  bcast_S1x1_S700000x1_0_1 : S1x1.BroadcastsInDim S700000x1 (![0, 1] : Fin 2 → Fin S700000x1.rank)
  reducesTo_S700000x1_S700000_d1 : S700000x1.ReducesTo [1] S700000
  h_S_ : 0 < S_.numel
  bcast_S700000_S700000x128_0 : S700000.BroadcastsInDim S700000x128 (![0] : Fin 1 → Fin S700000x128.rank)
  bcast_S_S700000x128 : S_.BroadcastsInDim S700000x128 (![] : Fin 0 → Fin S700000x128.rank)
  shapeCasts_S700000_S700000x1 : S700000.ShapeCasts S700000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S100000x128 : S_.BroadcastsInDim S100000x128 (![] : Fin 0 → Fin S100000x128.rank)
  transposes_S64x128_S128x64_1_0 : S64x128.Transposes [1, 0] S128x64
  shapeCasts_S64_S1x64 : S64.ShapeCasts S1x64
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S700000x128.size a
  hwx1_0 : ∀ i : grid1.Coords, EltTy.bits .f32 = 32 ∨ (Rect.block (s := S700000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S700000x1.size a
  hwx1_1 : ∀ i : grid1.Coords, EltTy.bits .f32 = 32 ∨ (Rect.block (s := S700000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S700000x128.size a
  hwx1_2 : ∀ i : grid1.Coords, EltTy.bits .f32 = 32 ∨ (Rect.block (s := S700000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S700000x128.size a
  hwx2_0 : ∀ i : grid2.Coords, EltTy.bits .f32 = 32 ∨ (Rect.block (s := S700000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S700000x1.size a
  hwx2_1 : ∀ i : grid2.Coords, EltTy.bits .f32 = 32 ∨ (Rect.block (s := S700000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S700000x128.size a
  hwx2_2 : ∀ i : grid2.Coords, EltTy.bits .f32 = 32 ∨ (Rect.block (s := S700000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v58) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v60) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v69) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000 : Shape := ⟨1, ![600000]⟩
abbrev S128 : Shape := ⟨1, ![128]⟩
abbrev S64x128 : Shape := ⟨2, ![64, 128]⟩
abbrev S64 : Shape := ⟨1, ![64]⟩
abbrev S_ : Shape := ⟨0, ![]⟩
abbrev S1x128 : Shape := ⟨2, ![1, 128]⟩
abbrev S1x600000 : Shape := ⟨2, ![1, 600000]⟩
abbrev S100000 : Shape := ⟨1, ![100000]⟩
abbrev S700000 : Shape := ⟨1, ![700000]⟩
abbrev S700000x1 : Shape := ⟨2, ![700000, 1]⟩
abbrev S700000x128 : Shape := ⟨2, ![700000, 128]⟩
abbrev S128x64 : Shape := ⟨2, ![128, 64]⟩
abbrev S100000x64 : Shape := ⟨2, ![100000, 64]⟩
abbrev S1x64 : Shape := ⟨2, ![1, 64]⟩
abbrev S100000x1 : Shape := ⟨2, ![100000, 1]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S2x600000, .i32⟩
  | 2 => ⟨S600000, .f32⟩
  | 3 => ⟨S128, .f32⟩
  | 4 => ⟨S64x128, .f32⟩
  | 5 => ⟨S64, .f32⟩
  | 6 => ⟨S600000, .f32⟩
  | 7 => ⟨S_, .f32⟩
  | 8 => ⟨S600000, .f32⟩
  | 9 => ⟨S600000, .i1⟩
  | 10 => ⟨S600000, .f32⟩
  | 11 => ⟨S600000, .f32⟩
  | 12 => ⟨S600000, .f32⟩
  | 13 => ⟨S_, .f32⟩
  | 14 => ⟨S600000, .f32⟩
  | 15 => ⟨S600000, .f32⟩
  | 16 => ⟨S_, .f32⟩
  | 17 => ⟨S600000, .f32⟩
  | 18 => ⟨S600000, .f32⟩
  | 19 => ⟨S600000, .f32⟩
  | 20 => ⟨S128, .f32⟩
  | 21 => ⟨S_, .f32⟩
  | 22 => ⟨S128, .f32⟩
  | 23 => ⟨S128, .i1⟩
  | 24 => ⟨S128, .f32⟩
  | 25 => ⟨S128, .f32⟩
  | 26 => ⟨S128, .f32⟩
  | 27 => ⟨S_, .f32⟩
  | 28 => ⟨S128, .f32⟩
  | 29 => ⟨S128, .f32⟩
  | 30 => ⟨S_, .f32⟩
  | 31 => ⟨S128, .f32⟩
  | 32 => ⟨S128, .f32⟩
  | 33 => ⟨S128, .f32⟩
  | 34 => ⟨S1x128, .f32⟩
  | 35 => ⟨S100000x128, .f32⟩
  | 36 => ⟨S100000x128, .f32⟩
  | 37 => ⟨S1x600000, .i32⟩
  | 38 => ⟨S600000, .i32⟩
  | 39 => ⟨S1x600000, .i32⟩
  | 40 => ⟨S600000, .i32⟩
  | 41 => ⟨S100000, .i32⟩
  | 42 => ⟨S700000, .i32⟩
  | 43 => ⟨S700000, .i32⟩
  | 44 => ⟨S_, .f32⟩
  | 45 => ⟨S100000, .f32⟩
  | 46 => ⟨S700000, .f32⟩
  | 47 => ⟨S_, .f32⟩
  | 48 => ⟨S100000, .f32⟩
  | 49 => ⟨S700000x1, .i32⟩
  | 50 => ⟨S100000, .f32⟩
  | 51 => ⟨S_, .f32⟩
  | 52 => ⟨S100000, .f32⟩
  | 53 => ⟨S100000, .i1⟩
  | 54 => ⟨S_, .f32⟩
  | 55 => ⟨S100000, .f32⟩
  | 56 => ⟨S100000, .f32⟩
  | 57 => ⟨S100000, .f32⟩
  | 58 => ⟨S_, .f32⟩
  | 59 => ⟨S_, .f32⟩
  | 60 => ⟨S100000, .f32⟩
  | 61 => ⟨S100000, .f32⟩
  | 62 => ⟨S_, .i32⟩
  | 63 => ⟨S700000, .i32⟩
  | 64 => ⟨S700000, .i1⟩
  | 65 => ⟨S_, .i32⟩
  | 66 => ⟨S700000, .i32⟩
  | 67 => ⟨S700000, .i32⟩
  | 68 => ⟨S700000, .i32⟩
  | 69 => ⟨S700000x1, .i32⟩
  | 70 => ⟨S700000, .f32⟩
  | 71 => ⟨S700000, .f32⟩
  | 72 => ⟨S_, .i32⟩
  | 73 => ⟨S700000, .i32⟩
  | 74 => ⟨S700000, .i1⟩
  | 75 => ⟨S_, .i32⟩
  | 76 => ⟨S700000, .i32⟩
  | 77 => ⟨S700000, .i32⟩
  | 78 => ⟨S700000, .i32⟩
  | 79 => ⟨S700000x1, .i32⟩
  | 80 => ⟨S700000, .f32⟩
  | 81 => ⟨S700000, .f32⟩
  | 82 => ⟨S700000x1, .f32⟩
  | 83 => ⟨S_, .i32⟩
  | 84 => ⟨S700000, .i32⟩
  | 85 => ⟨S700000, .i1⟩
  | 86 => ⟨S_, .i32⟩
  | 87 => ⟨S700000, .i32⟩
  | 88 => ⟨S700000, .i32⟩
  | 89 => ⟨S700000, .i32⟩
  | 90 => ⟨S700000x1, .i32⟩
  | 91 => ⟨S700000x128, .f32⟩
  | 92 => ⟨S700000x128, .f32⟩
  | 93 => ⟨S700000x128, .f32⟩
  | 94 => ⟨S_, .f32⟩
  | 95 => ⟨S100000x128, .f32⟩
  | 96 => ⟨S700000x1, .i32⟩
  | 97 => ⟨S100000x128, .f32⟩
  | 98 => ⟨S700000x1, .f32⟩
  | 99 => ⟨S_, .i32⟩
  | 100 => ⟨S700000, .i32⟩
  | 101 => ⟨S700000, .i1⟩
  | 102 => ⟨S_, .i32⟩
  | 103 => ⟨S700000, .i32⟩
  | 104 => ⟨S700000, .i32⟩
  | 105 => ⟨S700000, .i32⟩
  | 106 => ⟨S700000x1, .i32⟩
  | 107 => ⟨S700000x128, .f32⟩
  | 108 => ⟨S700000x128, .f32⟩
  | 109 => ⟨S700000x128, .f32⟩
  | 110 => ⟨S_, .f32⟩
  | 111 => ⟨S100000x128, .f32⟩
  | 112 => ⟨S700000x1, .i32⟩
  | 113 => ⟨S100000x128, .f32⟩
  | 114 => ⟨S128x64, .f32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S100000, .f32⟩
  | 121 => ⟨S_, .f32⟩
  | 122 => ⟨S100000, .f32⟩
  | 123 => ⟨S100000, .f32⟩
  | 124 => ⟨S100000x1, .f32⟩
  | 125 => ⟨S100000x64, .f32⟩
  | 126 => ⟨S100000x64, .f32⟩
  | 127 => ⟨S100000x64, .f32⟩
  | _ => ⟨S100000x128, .f32⟩

abbrev hbmTy0_1 (i : Nat) : BufTy := match i % 128 with
  | 0 => ⟨S_, .f32⟩
  | 1 => ⟨S100000, .f32⟩
  | 2 => ⟨S100000x1, .f32⟩
  | 3 => ⟨S100000x1, .f32⟩
  | 4 => ⟨S100000x64, .f32⟩
  | 5 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_call0_v0 : Ref sig .tc := ⟨.hbm, 59, rfl⟩
abbrev main_call0_v1 : Ref sig .tc := ⟨.hbm, 60, rfl⟩
abbrev main_v42 : Ref sig .tc := ⟨.hbm, 61, rfl⟩
abbrev main_c : Ref sig .tc := ⟨.hbm, 62, rfl⟩
abbrev main_v43 : Ref sig .tc := ⟨.hbm, 63, rfl⟩
abbrev main_v44 : Ref sig .tc := ⟨.hbm, 64, rfl⟩
abbrev main_c_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_c_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_c_14 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_15 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_16 : Ref sig .tc := ⟨.hbm, 99, rfl⟩
abbrev main_v73 : Ref sig .tc := ⟨.hbm, 100, rfl⟩
abbrev main_v74 : Ref sig .tc := ⟨.hbm, 101, rfl⟩
abbrev main_c_17 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_18 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_call1_cst : Ref sig .tc := ⟨.hbm, 119, rfl⟩
abbrev main_call1_v0 : Ref sig .tc := ⟨.hbm, 120, rfl⟩
abbrev main_call1_cst_0 : Ref sig .tc := ⟨.hbm, 121, rfl⟩
abbrev main_call1_v1 : Ref sig .tc := ⟨.hbm, 122, rfl⟩
abbrev main_call1_v2 : Ref sig .tc := ⟨.hbm, 123, rfl⟩
abbrev main_call1_v3 : Ref sig .tc := ⟨.hbm, 124, rfl⟩
abbrev main_call1_v4 : Ref sig .tc := ⟨.hbm, 125, rfl⟩
abbrev main_call1_v5 : Ref sig .tc := ⟨.hbm, 126, rfl⟩
abbrev main_call1_v6 : Ref sig .tc := ⟨.hbm, 127, rfl⟩
abbrev main_call1_cst_1 : Ref sig .tc := ⟨.hbm, 128, rfl⟩
abbrev main_call1_v7 : Ref sig .tc := ⟨.hbm, 129, rfl⟩
abbrev main_call1_v8 : Ref sig .tc := ⟨.hbm, 130, rfl⟩
abbrev main_call1_v9 : Ref sig .tc := ⟨.hbm, 131, rfl⟩
abbrev main_call1_v10 : Ref sig .tc := ⟨.hbm, 132, rfl⟩
abbrev main_v90 : Ref sig .tc := ⟨.hbm, 133, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S100000 : S_.BroadcastsInDim S100000 (![] : Fin 0 → Fin S100000.rank)
  bcast_S700000_S700000x1_0 : S700000.BroadcastsInDim S700000x1 (![0] : Fin 1 → Fin S700000x1.rank)
  bcast_S_S700000 : S_.BroadcastsInDim S700000 (![] : Fin 0 → Fin S700000.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x64_S100000x64_1_0_0_1_n_n_wf : DotDims.WF S100000x128 S128x64 S100000x64 [1] [0] [0] [1] [] []

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.RegionGate.lean ====
/-
  The gated feature matrix: what the first region leaves in its output array, entry by entry.

  The region walks the 100000 rows in 20 blocks of 5000. At every point its body multiplies the block of x it was
  given by the one gate row g[0, ·] spread over the block's rows, and stores the product over the whole output block.
  So each point writes back the block of ONE whole-array function, (r, f) ↦ x[r, f] · g[0, f]; the 20 blocks tile the
  rows, and the output array ends holding that function.
-/
import proofs.«407682_j28991029248693_1_alg».proof.Proof.Gen.KernelIdeal.Frame
import Idealize.ShloMosaic.Lib.Pipeline.Value
import Idealize.ShloMosaic.Lib.ValueIdx
import Idealize.ShloMosaic.Lib.ValueLayout

noncomputable section

open scoped BigOperators

namespace Cert.KernelIdeal.Val

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! ## The whole-array function and the body's product at an index -/

/-- The offsets of a whole-block access, both zero. -/
theorem gate_hz : (![0, 0] : Fin 2 → Nat) = fun _ => 0 := funext fun a => by fin_cases a <;> rfl

/-- The gated matrix: entry (r, f) is x[r, f] · g[0, f]. -/
def gated (x : FVec Ideal S100000x128 .f32) (g : FVec Ideal S1x128 .f32) : FVec Ideal S100000x128 .f32 :=
  fun i => x i * g (ix2 (0 : Fin 1) (⟨(i 1).val, idx2_lt1 i⟩ : Fin 128))

/-- Read at coordinates. -/
theorem gated_at (x : FVec Ideal S100000x128 .f32) (g : FVec Ideal S1x128 .f32) (r : Fin 100000) (f : Fin 128) :
    gated x g (ix2 r f) = x (ix2 r f) * g (ix2 (0 : Fin 1) f) := rfl

/-- The body's product at an index of the block: the block's entry times the gate row's entry of the same column
    (the cast to the row's own shape is the identity, the row is spread over the block's rows). -/
theorem gate_pay_at (x0 : FVec Ideal S5000x128 .f32) (x1 : FVec Ideal S1x128 .f32) (j : S5000x128.Idx) :
    k0_pay1 x0 x1 j = x0 j * x1 (ix2 (0 : Fin 1) (⟨(j 1).val, idx2_lt1 j⟩ : Fin 128)) := by
  obtain ⟨p, q, rfl⟩ : ∃ (p : Fin 5000) (q : Fin 128), j = ix2 p q := ⟨j 0, j 1, eq_ix2 j⟩
  show mulf x0 (broadcastTo S5000x128 (shapeCast S1x128 x1 shapeCasts_S1x128_S1x128) broadcasts_S1x128_S5000x128) (ix2 p q) = _
  rw [mulf_apply, broadcastTo_1b_ab_apply, shapeCast_self]

/-- A product of an entry of x and an entry of the gate row is the gated matrix's entry, once the two indices are
    the matrix index and its column in row 0. -/
theorem gated_of_idx (x : FVec Ideal S100000x128 .f32) (g : FVec Ideal S1x128 .f32) (i0 i2 : S100000x128.Idx) (i1 : S1x128.Idx)
    (h0 : i0 = i2) (h1 : i1 = ix2 (0 : Fin 1) (⟨(i2 1).val, idx2_lt1 i2⟩ : Fin 128)) :
    x i0 * g i1 = gated x g i2 := by
  subst h0 h1; rfl

/-! ## The blocks -/

/-- The index maps over the grid: the x block and the output block of point t are both block row t, column block 0;
    the gate row's block never moves. -/
theorem gate_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the gated matrix of the arrays as the region finds them. -/
theorem gate_flushed (c : Dev nD) (t : Fin cfg0.N) :
    (dat0 (F := Ideal) V c).flushed 2 t
      = ((cfg0.win 2).blk t).view.read (Elt Ideal) (gated (V c main_arg0) (V c main_v22)) := by
  show (cfg0.win 2).cut (grid0.coords t) ((dat0 (F := Ideal) V c).after 2 t) = _
  rw [after0_2]
  unfold out0_2
  rw [View.canon_unit_zero gate_hz]
  simp only [View.ld_unit_zero (S := S5000x128) gate_hz, View.ld_unit_zero (S := S1x128) gate_hz]
  obtain ⟨e0, e1, e2, e3, e4, e5⟩ := gate_idx t
  funext j
  refine (gate_pay_at _ _ j).trans ?_
  have hj1 : (j 1).val < 128 := (j 1).isLt
  refine gated_of_idx (V c main_arg0) (V c main_v22) (((cfg0.win 0).blk t).view.emb j) (((cfg0.win 2).blk t).view.emb j)
    (((cfg0.win 1).blk t).view.emb (ix2 (0 : Fin 1) (⟨(j 1).val, hj1⟩ : Fin 128))) ?_ ?_
  · funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  · funext a; apply Fin.ext
    match a with
    | ⟨0, _⟩ => show win0_1.index t (0 : Fin 2) * 1 + 1 * 0 = 0; omega
    | ⟨1, _⟩ => show win0_1.index t (1 : Fin 2) * 128 + 1 * (j 1).val = win0_2.index t (1 : Fin 2) * 128 + 1 * (j 1).val; omega

/-- An index of the output array is in point t's block iff each coordinate is in the block's range on its axis. -/
theorem gate_mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v23).slice (win0_2.rect t)).set ↔ _
  rw [View.set_slice_whole, Rect.mem_set_unit]
  exact Iff.rfl

/-- Row r lies in the block of point r / 5000: the 20 blocks tile the array. -/
theorem gate_cover (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  refine ⟨⟨(i 0).val / 5000, by rw [show cfg0.N = 20 from N_0]; omega⟩, flush0_2 _, ?_⟩
  obtain ⟨-, -, -, -, e4, e5⟩ := gate_idx ⟨(i 0).val / 5000, by rw [show cfg0.N = 20 from N_0]; omega⟩
  rw [gate_mem_blk]
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- The output array after all 20 points is the gated matrix of the arrays as the region finds them. -/
theorem gate_final (c : Dev nD) :
    (dat0 (F := Ideal) V c).arrAt 2 cfg0.N = gated (V c main_arg0) (V c main_v22) :=
  (dat0 (F := Ideal) V c).arrAt_eq_of_cover 2 (gated (V c main_arg0) (V c main_v22))
    (fun t _ => gate_flushed V c t) gate_cover

/-- After the first region, entry (r, f) of its output array is x[r, f] · g[0, f]. -/
theorem gate_at (c : Dev nD) (x : FVec Ideal S100000x128 .f32) (g : FVec Ideal S1x128 .f32)
    (hx : V c main_arg0 = x) (hg : V c main_v22 = g) (r : Fin 100000) (f : Fin 128) :
    (dat0 (F := Ideal) V c).arrAt 2 cfg0.N (ix2 r f) = x (ix2 r f) * g (ix2 (0 : Fin 1) f) := by
  rw [gate_final V c, hx, hg, gated_at]

end Cert.KernelIdeal.Val

end
-- ==== Proof.LibColumn.lean ====
/-
  Column vectors and one-axis reductions of a matrix, read at an index given by coordinates.

  A reduction of an `[a, b]` matrix with `keepdims` goes through three layout steps the library reads only in their
  row forms: the reduced `[a]` vector is cast to the column `[a, 1]`, and the column is broadcast back over
  `[a, b]`. Here those two are read at `(r, c)`, together with the reductions themselves at the ideal instance:
  the sum of a matrix along its columns or its rows as a `Fin`-indexed sum over `ix2`, and the maximum along the
  columns as the fold of `max` over the row — for the vector unit's reduction and for the host's alike.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

/-! ## The layout steps of a keepdims reduction -/

section Layout
variable {α : Type}

/-- An `[a]` vector cast to the column `[a, 1]` reads, at `(r, u)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## Which source index a reduced index and a coordinate name -/

/-- Reducing `[a, b]` along axis 1: over row `r`, coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing `[a, b]` along axis 0: over column `t`, coordinate `k` put back is `(k, t)`. -/
theorem lift_axis0 {a b : ℕ} (h : (⟨2, ![a, b]⟩ : Shape).Reduces [0] (⟨1, ![b]⟩ : Shape)) (t : Fin b)
    (k : Fin ((⟨2, ![a, b]⟩ : Shape).size 0)) : h.lift (ix1 t) k = ix2 (⟨k.val, k.isLt⟩ : Fin a) t := by
  funext c; apply Fin.ext
  fin_cases c <;> rfl

/-! ## The reductions at the ideal instance -/

section Reductions
variable {φ : FTy}

/-- The vector unit's sum of a matrix along its columns is, at row `r`, the sum of that row. -/
theorem sumAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ v acc h hφ hacc (ix1 r) = ∑ k : Fin b, v (ix2 r k) :=
  (Ideal.multiReduction_add_single v acc h hφ hacc (ix1 r)).trans
    (Finset.sum_congr rfl fun k _ => congrArg v (lift_axis1 h r k))

/-- The vector unit's sum of a matrix along its rows is, at column `t`, the sum of that column. -/
theorem sumAxis0_apply {a b : ℕ} (v : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (t : Fin b) :
    multiReduction .add [0] ⟨1, ![b]⟩ v acc h hφ hacc (ix1 t) = ∑ k : Fin a, v (ix2 k t) :=
  (Ideal.multiReduction_add_single v acc h hφ hacc (ix1 t)).trans
    (Finset.sum_congr rfl fun k _ => congrArg v (lift_axis0 h t k))

/-- The vector unit's maximum of a matrix along its columns is, at row `r`, the fold of `max` over that row from
    the accumulator's value. -/
theorem maxAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ v acc h hφ hacc (ix1 r)
      = (Finset.univ : Finset (Fin b)).fold max (Ideal.ofBits φ acc) (fun k => v (ix2 r k)) :=
  (Ideal.multiReduction_maximumf_single v acc h hφ hacc (ix1 r)).trans
    (congrArg (fun f => (Finset.univ : Finset (Fin b)).fold max (Ideal.ofBits φ acc) f)
      (funext fun k => congrArg v (lift_axis1 h r k)))

/-- The host's reduce with a maximum body along the columns is, at row `r`, the same fold from the initial value. -/
theorem hostMaxAxis1_apply {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) :=
  (Host.reduce_eq_fold_single FloatOps.maximumf x init h' h hu (ix1 r)).trans
    (congrArg (fun f => (Finset.univ : Finset (Fin b)).fold max (init (Shape.Idx.first hu)) f)
      (funext fun k => congrArg x (lift_axis1 h r k)))

end Reductions

end Cert.LibColumn

end
-- ==== Proof.RegionMsg1.lean ====
/-
  The scaled messages of hop 1: what the message region leaves in its output array, entry by entry.

  The region walks the 700000 edges in 175 blocks of 4000. At every point its body multiplies the block of gathered
  features it was given by the block of the coefficient column n[·, 0] spread over the 128 feature columns, and stores
  the product over the whole output block. So each point writes back the block of ONE whole-array function,
  (e, f) ↦ xg[e, f] · n[e, 0]; the 175 blocks tile the edges, and the output array ends holding that function.
-/
import proofs.«407682_j28991029248693_1_alg».proof.Proof.Gen.KernelIdeal.Frame
import Idealize.ShloMosaic.Lib.Pipeline.Value
import Idealize.ShloMosaic.Lib.ValueIdx
import Idealize.ShloMosaic.Lib.ValueLayout
import proofs.«407682_j28991029248693_1_alg».proof.Proof.LibColumn

noncomputable section

open scoped BigOperators

namespace Cert.KernelIdeal.Val

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! ## The whole-array function and the body's product at an index -/

/-- The offsets of a whole-block access, both zero. -/
theorem msg1_hz : (![0, 0] : Fin 2 → Nat) = fun _ => 0 := funext fun a => by fin_cases a <;> rfl

/-- The scaled messages: entry (e, f) is xg[e, f] · n[e, 0]. -/
def scaled1 (xg : FVec Ideal S700000x128 .f32) (n : FVec Ideal S700000x1 .f32) : FVec Ideal S700000x128 .f32 :=
  fun i => xg i * n (ix2 (⟨(i 0).val, idx2_lt0 i⟩ : Fin 700000) (0 : Fin 1))

/-- Read at coordinates. -/
theorem scaled1_at (xg : FVec Ideal S700000x128 .f32) (n : FVec Ideal S700000x1 .f32) (e : Fin 700000) (f : Fin 128) :
    scaled1 xg n (ix2 e f) = xg (ix2 e f) * n (ix2 e (0 : Fin 1)) := rfl

/-- The body's product at an index of the block: the block's entry times the coefficient column's entry of the same
    row (both casts are to the operand's own shape, so the identity; the column is spread over the 128 columns). -/
theorem msg1_pay_at (x0 : FVec Ideal S4000x128 .f32) (x1 : FVec Ideal S4000x1 .f32) (j : S4000x128.Idx) :
    k1_pay1 x0 x1 j = x0 j * x1 (ix2 (⟨(j 0).val, idx2_lt0 j⟩ : Fin 4000) (0 : Fin 1)) := by
  obtain ⟨p, q, rfl⟩ : ∃ (p : Fin 4000) (q : Fin 128), j = ix2 p q := ⟨j 0, j 1, eq_ix2 j⟩
  show mulf (shapeCast S4000x128 x0 shapeCasts_S4000x128_S4000x128)
      (broadcastTo S4000x128 (shapeCast S4000x1 x1 shapeCasts_S4000x1_S4000x1) broadcasts_S4000x1_S4000x128) (ix2 p q) = _
  rw [mulf_apply, Cert.LibColumn.broadcastTo_a1_ab_apply, shapeCast_self, shapeCast_self]

/-- A product of an entry of xg and an entry of the coefficient column is the scaled messages' entry, once the two
    indices are the matrix index and its row in column 0. -/
theorem scaled1_of_idx (xg : FVec Ideal S700000x128 .f32) (n : FVec Ideal S700000x1 .f32) (i0 i2 : S700000x128.Idx)
    (i1 : S700000x1.Idx) (h0 : i0 = i2) (h1 : i1 = ix2 (⟨(i2 0).val, idx2_lt0 i2⟩ : Fin 700000) (0 : Fin 1)) :
    xg i0 * n i1 = scaled1 xg n i2 := by
  subst h0 h1; rfl

/-! ## The blocks -/

/-- The index maps over the grid: at point t the feature block, the coefficient block and the output block are all
    block row t, column block 0. -/
theorem msg1_idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the scaled messages of the arrays as the region finds them. -/
theorem msg1_flushed (c : Dev nD) (t : Fin cfg1.N) :
    (dat1 (F := Ideal) V c).flushed 2 t
      = ((cfg1.win 2).blk t).view.read (Elt Ideal) (scaled1 (V c main_v58) (V c main_v59)) := by
  show (cfg1.win 2).cut (grid1.coords t) ((dat1 (F := Ideal) V c).after 2 t) = _
  rw [after1_2]
  unfold out1_2
  rw [View.canon_unit_zero msg1_hz]
  simp only [View.ld_unit_zero (S := S4000x128) msg1_hz, View.ld_unit_zero (S := S4000x1) msg1_hz]
  obtain ⟨e0, e1, e2, e3, e4, e5⟩ := msg1_idx t
  funext j
  refine (msg1_pay_at _ _ j).trans ?_
  have hj0 : (j 0).val < 4000 := (j 0).isLt
  refine scaled1_of_idx (V c main_v58) (V c main_v59) (((cfg1.win 0).blk t).view.emb j) (((cfg1.win 2).blk t).view.emb j)
    (((cfg1.win 1).blk t).view.emb (ix2 (⟨(j 0).val, hj0⟩ : Fin 4000) (0 : Fin 1))) ?_ ?_
  · funext a; apply Fin.ext
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 128 + 1 * (j 1).val = win1_2.index t (1 : Fin 2) * 128 + 1 * (j 1).val; omega
  · funext a; apply Fin.ext
    match a with
    | ⟨0, _⟩ => show win1_1.index t (0 : Fin 2) * 4000 + 1 * (j 0).val = win1_2.index t (0 : Fin 2) * 4000 + 1 * (j 0).val; omega
    | ⟨1, _⟩ => show win1_1.index t (1 : Fin 2) * 1 + 1 * 0 = 0; omega

/-- An index of the output array is in point t's block iff each coordinate is in the block's range on its axis. -/
theorem msg1_mem_blk (t : Fin cfg1.N) (i : S700000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v60).slice (win1_2.rect t)).set ↔ _
  rw [View.set_slice_whole, Rect.mem_set_unit]
  exact Iff.rfl

/-- Row e lies in the block of point e / 4000: the 175 blocks tile the array. -/
theorem msg1_cover (i : S700000x128.Idx) :
    ∃ t : Fin cfg1.N, (cfg1.win 2).flush t = true ∧ i ∈ ((cfg1.win 2).blk t).view.set := by
  have hi0 : (i 0).val < 700000 := idx2_lt0 i
  have hi1 : (i 1).val < 128 := idx2_lt1 i
  refine ⟨⟨(i 0).val / 4000, by rw [show cfg1.N = 175 from N_1]; omega⟩, flush1_2 _, ?_⟩
  obtain ⟨-, -, -, -, e4, e5⟩ := msg1_idx ⟨(i 0).val / 4000, by rw [show cfg1.N = 175 from N_1]; omega⟩
  rw [msg1_mem_blk]
  intro a
  match a with
  | ⟨0, _⟩ =>
    show win1_2.index _ (0 : Fin 2) * 4000 ≤ (i 0).val ∧ (i 0).val < win1_2.index _ (0 : Fin 2) * 4000 + 4000
    rw [e4]; show (i 0).val / 4000 * 4000 ≤ (i 0).val ∧ (i 0).val < (i 0).val / 4000 * 4000 + 4000; omega
  | ⟨1, _⟩ =>
    show win1_2.index _ (1 : Fin 2) * 128 ≤ (i 1).val ∧ (i 1).val < win1_2.index _ (1 : Fin 2) * 128 + 128
    rw [e5]; omega

/-- The output array after all 175 points is the scaled messages of the arrays as the region finds them. -/
theorem msg1_final (c : Dev nD) :
    (dat1 (F := Ideal) V c).arrAt 2 cfg1.N = scaled1 (V c main_v58) (V c main_v59) :=
  (dat1 (F := Ideal) V c).arrAt_eq_of_cover 2 (scaled1 (V c main_v58) (V c main_v59))
    (fun t _ => msg1_flushed V c t) msg1_cover

/-- After the region, entry (e, f) of its output array is the gathered feature xg[e, f] times the edge's coefficient n[e, 0]. -/
theorem msg1_at (c : Dev nD) (xg : FVec Ideal S700000x128 .f32) (n : FVec Ideal S700000x1 .f32)
    (hxg : V c main_v58 = xg) (hn : V c main_v59 = n) (e : Fin 700000) (f : Fin 128) :
    (dat1 (F := Ideal) V c).arrAt 2 cfg1.N (ix2 e f) = xg (ix2 e f) * n (ix2 e (0 : Fin 1)) := by
  rw [msg1_final V c, hxg, hn, scaled1_at]

end Cert.KernelIdeal.Val

end
-- ==== Proof.RegionMsg2.lean ====
/-
  The scaled messages of hop 2: what the message region leaves in its output array, entry by entry.

  The region walks the 700000 edges in 175 blocks of 4000. At every point its body multiplies the block of gathered
  features it was given by the block of the coefficient column n[·, 0] spread over the 128 feature columns, and stores
  the product over the whole output block. So each point writes back the block of ONE whole-array function,
  (e, f) ↦ xg[e, f] · n[e, 0]; the 175 blocks tile the edges, and the output array ends holding that function.
-/
import proofs.«407682_j28991029248693_1_alg».proof.Proof.Gen.KernelIdeal.Frame
import Idealize.ShloMosaic.Lib.Pipeline.Value
import Idealize.ShloMosaic.Lib.ValueIdx
import Idealize.ShloMosaic.Lib.ValueLayout
import proofs.«407682_j28991029248693_1_alg».proof.Proof.LibColumn

noncomputable section

open scoped BigOperators

namespace Cert.KernelIdeal.Val

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! ## The whole-array function and the body's product at an index -/

/-- The offsets of a whole-block access, both zero. -/
theorem msg2_hz : (![0, 0] : Fin 2 → Nat) = fun _ => 0 := funext fun a => by fin_cases a <;> rfl

/-- The scaled messages: entry (e, f) is xg[e, f] · n[e, 0]. -/
def scaled2 (xg : FVec Ideal S700000x128 .f32) (n : FVec Ideal S700000x1 .f32) : FVec Ideal S700000x128 .f32 :=
  fun i => xg i * n (ix2 (⟨(i 0).val, idx2_lt0 i⟩ : Fin 700000) (0 : Fin 1))

/-- Read at coordinates. -/
theorem scaled2_at (xg : FVec Ideal S700000x128 .f32) (n : FVec Ideal S700000x1 .f32) (e : Fin 700000) (f : Fin 128) :
    scaled2 xg n (ix2 e f) = xg (ix2 e f) * n (ix2 e (0 : Fin 1)) := rfl

/-- The body's product at an index of the block: the block's entry times the coefficient column's entry of the same
    row (both casts are to the operand's own shape, so the identity; the column is spread over the 128 columns). -/
theorem msg2_pay_at (x0 : FVec Ideal S4000x128 .f32) (x1 : FVec Ideal S4000x1 .f32) (j : S4000x128.Idx) :
    k2_pay1 x0 x1 j = x0 j * x1 (ix2 (⟨(j 0).val, idx2_lt0 j⟩ : Fin 4000) (0 : Fin 1)) := by
  obtain ⟨p, q, rfl⟩ : ∃ (p : Fin 4000) (q : Fin 128), j = ix2 p q := ⟨j 0, j 1, eq_ix2 j⟩
  show mulf (shapeCast S4000x128 x0 shapeCasts_S4000x128_S4000x128)
      (broadcastTo S4000x128 (shapeCast S4000x1 x1 shapeCasts_S4000x1_S4000x1) broadcasts_S4000x1_S4000x128) (ix2 p q) = _
  rw [mulf_apply, Cert.LibColumn.broadcastTo_a1_ab_apply, shapeCast_self, shapeCast_self]

/-- A product of an entry of xg and an entry of the coefficient column is the scaled messages' entry, once the two
    indices are the matrix index and its row in column 0. -/
theorem scaled2_of_idx (xg : FVec Ideal S700000x128 .f32) (n : FVec Ideal S700000x1 .f32) (i0 i2 : S700000x128.Idx)
    (i1 : S700000x1.Idx) (h0 : i0 = i2) (h1 : i1 = ix2 (⟨(i2 0).val, idx2_lt0 i2⟩ : Fin 700000) (0 : Fin 1)) :
    xg i0 * n i1 = scaled2 xg n i2 := by
  subst h0 h1; rfl

/-! ## The blocks -/

/-- The index maps over the grid: at point t the feature block, the coefficient block and the output block are all
    block row t, column block 0. -/
theorem msg2_idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of the scaled messages of the arrays as the region finds them. -/
theorem msg2_flushed (c : Dev nD) (t : Fin cfg2.N) :
    (dat2 (F := Ideal) V c).flushed 2 t
      = ((cfg2.win 2).blk t).view.read (Elt Ideal) (scaled2 (V c main_v64) (V c main_v65)) := by
  show (cfg2.win 2).cut (grid2.coords t) ((dat2 (F := Ideal) V c).after 2 t) = _
  rw [after2_2]
  unfold out2_2
  rw [View.canon_unit_zero msg2_hz]
  simp only [View.ld_unit_zero (S := S4000x128) msg2_hz, View.ld_unit_zero (S := S4000x1) msg2_hz]
  obtain ⟨e0, e1, e2, e3, e4, e5⟩ := msg2_idx t
  funext j
  refine (msg2_pay_at _ _ j).trans ?_
  have hj0 : (j 0).val < 4000 := (j 0).isLt
  refine scaled2_of_idx (V c main_v64) (V c main_v65) (((cfg2.win 0).blk t).view.emb j) (((cfg2.win 2).blk t).view.emb j)
    (((cfg2.win 1).blk t).view.emb (ix2 (⟨(j 0).val, hj0⟩ : Fin 4000) (0 : Fin 1))) ?_ ?_
  · funext a; apply Fin.ext
    match a with
    | ⟨0, _⟩ => show win2_0.index t (0 : Fin 2) * 4000 + 1 * (j 0).val = win2_2.index t (0 : Fin 2) * 4000 + 1 * (j 0).val; omega
    | ⟨1, _⟩ => show win2_0.index t (1 : Fin 2) * 128 + 1 * (j 1).val = win2_2.index t (1 : Fin 2) * 128 + 1 * (j 1).val; omega
  · funext a; apply Fin.ext
    match a with
    | ⟨0, _⟩ => show win2_1.index t (0 : Fin 2) * 4000 + 1 * (j 0).val = win2_2.index t (0 : Fin 2) * 4000 + 1 * (j 0).val; omega
    | ⟨1, _⟩ => show win2_1.index t (1 : Fin 2) * 1 + 1 * 0 = 0; omega

/-- An index of the output array is in point t's block iff each coordinate is in the block's range on its axis. -/
theorem msg2_mem_blk (t : Fin cfg2.N) (i : S700000x128.Idx) :
    i ∈ ((cfg2.win 2).blk t).view.set ↔ ∀ a : Fin 2, win2_2.index t a * S4000x128.size a ≤ (i a).val ∧ (i a).val < win2_2.index t a * S4000x128.size a + S4000x128.size a := by
  show i ∈ ((View.whole main_v66).slice (win2_2.rect t)).set ↔ _
  rw [View.set_slice_whole, Rect.mem_set_unit]
  exact Iff.rfl

/-- Row e lies in the block of point e / 4000: the 175 blocks tile the array. -/
theorem msg2_cover (i : S700000x128.Idx) :
    ∃ t : Fin cfg2.N, (cfg2.win 2).flush t = true ∧ i ∈ ((cfg2.win 2).blk t).view.set := by
  have hi0 : (i 0).val < 700000 := idx2_lt0 i
  have hi1 : (i 1).val < 128 := idx2_lt1 i
  refine ⟨⟨(i 0).val / 4000, by rw [show cfg2.N = 175 from N_2]; omega⟩, flush2_2 _, ?_⟩
  obtain ⟨-, -, -, -, e4, e5⟩ := msg2_idx ⟨(i 0).val / 4000, by rw [show cfg2.N = 175 from N_2]; omega⟩
  rw [msg2_mem_blk]
  intro a
  match a with
  | ⟨0, _⟩ =>
    show win2_2.index _ (0 : Fin 2) * 4000 ≤ (i 0).val ∧ (i 0).val < win2_2.index _ (0 : Fin 2) * 4000 + 4000
    rw [e4]; show (i 0).val / 4000 * 4000 ≤ (i 0).val ∧ (i 0).val < (i 0).val / 4000 * 4000 + 4000; omega
  | ⟨1, _⟩ =>
    show win2_2.index _ (1 : Fin 2) * 128 ≤ (i 1).val ∧ (i 1).val < win2_2.index _ (1 : Fin 2) * 128 + 128
    rw [e5]; omega

/-- The output array after all 175 points is the scaled messages of the arrays as the region finds them. -/
theorem msg2_final (c : Dev nD) :
    (dat2 (F := Ideal) V c).arrAt 2 cfg2.N = scaled2 (V c main_v64) (V c main_v65) :=
  (dat2 (F := Ideal) V c).arrAt_eq_of_cover 2 (scaled2 (V c main_v64) (V c main_v65))
    (fun t _ => msg2_flushed V c t) msg2_cover

/-- After the region, entry (e, f) of its output array is the gathered feature xg[e, f] times the edge's coefficient n[e, 0]. -/
theorem msg2_at (c : Dev nD) (xg : FVec Ideal S700000x128 .f32) (n : FVec Ideal S700000x1 .f32)
    (hxg : V c main_v64 = xg) (hn : V c main_v65 = n) (e : Fin 700000) (f : Fin 128) :
    (dat2 (F := Ideal) V c).arrAt 2 cfg2.N (ix2 e f) = xg (ix2 e f) * n (ix2 e (0 : Fin 1)) := by
  rw [msg2_final V c, hxg, hn, scaled2_at]

end Cert.KernelIdeal.Val

end
-- ==== Proof.Spec.lean ====
/-
  The one piece of arithmetic both programs end with, as a function of a row of logits.

  For a row `L` of 64 extended reals the log-softmax is taken in the shifted form: with `M` the maximum of the row
  (the fold of `max` from `⊥`), entry `j` is `(L j - M) - log (∑ j', exp (L j' - M))`. Both programs compute exactly
  this expression, so no law of the extended reals is needed to compare them: it is enough that they feed it the
  same row.  A row of logits is `∑ k, X k * W k j + b j` over the 128 features.
-/
import Idealize.ShloMosaic.PureOps.Ideal
import Idealize.ShloMosaic.Lib.ValueIdx

noncomputable section

open scoped BigOperators

namespace Cert.Spec

open Idealize.ShloMosaic

/-- The maximum of a row, folded from `⊥`. -/
def rowMax (L : Fin 64 → EReal) : EReal := (Finset.univ : Finset (Fin 64)).fold max (⊥ : EReal) L

/-- The shifted log-softmax of a row of 64 logits, entry `j`. -/
def logSoftmaxRow (L : Fin 64 → EReal) (j : Fin 64) : EReal :=
  (L j - rowMax L) - Ideal.log (∑ j' : Fin 64, Ideal.exp (L j' - rowMax L))

/-- One row of logits: the 128 features of a node against the weight matrix, plus the bias. -/
def logitsRow (X : Fin 128 → EReal) (W : Fin 128 → Fin 64 → EReal) (b : Fin 64 → EReal) (j : Fin 64) : EReal :=
  (∑ k : Fin 128, X k * W k j) + b j

end Cert.Spec

end
-- ==== Proof.RegionFinal.lean ====
/-
  The last region: linear layer and log-softmax, what it leaves in the result array, entry by entry.

  At a grid point the region holds rows 5000 t … 5000 t + 4999 of the feature matrix X, the whole weight matrix Wt
  and the bias row b. For each of its rows it forms the logits L j = ∑ k, X[r, k] · Wt[k, j] + b[0, j] (the change of
  format in front of the product is the identity on extended reals, and the product accumulates into zero), takes
  the row maximum M from ⊥, and leaves (L j - M) - log (∑ j', exp (L j' - M)). The twenty blocks of 5000 rows tile
  the 100000 rows, so row r of the result is written by point r / 5000 and by no other value.
-/
import proofs.«407682_j28991029248693_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«407682_j28991029248693_1_alg».proof.Proof.LibColumn
import proofs.«407682_j28991029248693_1_alg».proof.Proof.Spec

noncomputable section

open scoped BigOperators

namespace Cert.KernelIdeal.Val

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! ## The block product at an index -/

/-- The product's left operand index at output index `i` and contraction index `q`: its row is `i`'s. -/
theorem lhs_final_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- Its column is the contraction coordinate. -/
theorem lhs_final_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row is the contraction coordinate, -/
theorem rhs_final_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- and its column is `i`'s. -/
theorem rhs_final_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block product into the zero accumulator, at `(p, j)`: the sum over the 128 features of row `p` of the left
    operand against column `j` of the right one. -/
theorem matmul_at (A : FVec Ideal S5000x128 .bf16) (B : FVec Ideal S128x64 .bf16) (p : Fin 5000) (j : Fin 64) :
    matmul dot_S5000x128_S128x64_S5000x64_1_0_0_1_n_n none A B (constant S5000x64 .f32 0x00000000#32) (ix2 p j)
      = ∑ k : Fin 128, A (ix2 p k) * B (ix2 k j) := by
  refine (Ideal.matmul_constant_zero_apply dot_S5000x128_S128x64_S5000x64_1_0_0_1_n_n none A B (ix2 p j)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p j) ((ValueIdx.contrEquiv1 dot_S5000x128_S128x64_S5000x64_1_0_0_1_n_n 128 rfl rfl).symm k) = ix2 p k := funext fun a => Fin.ext (by
    match a with
    | ⟨0, _⟩ => exact lhs_final_0 _ _
    | ⟨1, _⟩ => exact (lhs_final_1 _ _).trans hk)
  have er : dot_S5000x128_S128x64_S5000x64_1_0_0_1_n_n.rhsIdx (ix2 p j) ((ValueIdx.contrEquiv1 dot_S5000x128_S128x64_S5000x64_1_0_0_1_n_n 128 rfl rfl).symm k) = ix2 k j := funext fun a => Fin.ext (by
    match a with
    | ⟨0, _⟩ => exact (rhs_final_0 _ _).trans hk
    | ⟨1, _⟩ => exact rhs_final_1 _ _)
  rw [el, er]

/-! ## The body's arithmetic, stage by stage -/

/-- The logits of a block: the product of the features and the weights, plus the bias row over every row. -/
def logitsBlk (x0 : Vec Ideal S5000x128 .f32) (x1 : Vec Ideal S128x64 .f32) (x2 : Vec Ideal S1x64 .f32) : FVec Ideal S5000x64 .f32 :=
  addf (matmul dot_S5000x128_S128x64_S5000x64_1_0_0_1_n_n none
      (truncf .bf16 (shapeCast S5000x128 x0 shapeCasts_S5000x128_S5000x128) bitsLt_bf16_f32)
      (truncf .bf16 (shapeCast S128x64 x1 shapeCasts_S128x64_S128x64) bitsLt_bf16_f32)
      (constant S5000x64 .f32 0x00000000#32))
    (broadcastTo S5000x64 (shapeCast S1x64 x2 shapeCasts_S1x64_S1x64) broadcasts_S1x64_S5000x64)

/-- The row maxima of a block, from the word of `⊥`. -/
def rowMaxBlk (L : FVec Ideal S5000x64 .f32) : FVec Ideal S5000 .f32 :=
  multiReduction .maximumf [1] S5000 L 0xFF800000#32 reduces_S5000x64_S5000 (.inl rfl) rfl

/-- A block with each row's maximum taken off. -/
def shiftedBlk (L : FVec Ideal S5000x64 .f32) : FVec Ideal S5000x64 .f32 :=
  subf L (broadcastTo S5000x64 (shapeCast S5000x1 (rowMaxBlk L) shapeCasts_S5000_S5000x1) broadcasts_S5000x1_S5000x64)

/-- The logarithm of each row's sum of exponentials of the shifted block, as a column. -/
def logSumBlk (L : FVec Ideal S5000x64 .f32) : FVec Ideal S5000x1 .f32 :=
  log (shapeCast S5000x1 (multiReduction .add [1] S5000 (exp (shiftedBlk L)) 0x00000000#32 reduces_S5000x64_S5000 (.inl rfl) rfl)
    shapeCasts_S5000_S5000x1)

/-- The shifted log-softmax of a block, row by row. -/
def logSoftmaxBlk (L : FVec Ideal S5000x64 .f32) : FVec Ideal S5000x64 .f32 :=
  subf (shiftedBlk L) (broadcastTo S5000x64 (logSumBlk L) broadcasts_S5000x1_S5000x64)

/-- The body's stored value is the log-softmax of the logits of its three loads. -/
theorem k3_pay1_eq (x0 : Vec Ideal S5000x128 .f32) (x1 : Vec Ideal S128x64 .f32) (x2 : Vec Ideal S1x64 .f32) :
    k3_pay1 (F := Ideal) x0 x1 x2 = logSoftmaxBlk (logitsBlk x0 x1 x2) := rfl

/-- The word `0xFF800000` is `⊥`. -/
theorem bottom_word : Ideal.ofBits .f32 0xFF800000#32 = (⊥ : EReal) := by simp [Ideal.ofBits, Ideal.ieee]

/-- The logits of a block at `(p, j)`: row `p` of the features against column `j` of the weights, plus the bias at `j`. -/
theorem logitsBlk_at (x0 : Vec Ideal S5000x128 .f32) (x1 : Vec Ideal S128x64 .f32) (x2 : Vec Ideal S1x64 .f32)
    (p : Fin 5000) (j : Fin 64) :
    logitsBlk x0 x1 x2 (ix2 p j)
      = Cert.Spec.logitsRow (fun k => x0 (ix2 p k)) (fun k j' => x1 (ix2 k j')) (fun j' => x2 (ix2 (0 : Fin 1) j')) j := by
  have e0 : shapeCast S5000x128 x0 shapeCasts_S5000x128_S5000x128 = x0 := shapeCast_self x0 _
  have e1 : shapeCast S128x64 x1 shapeCasts_S128x64_S128x64 = x1 := shapeCast_self x1 _
  have e2 : shapeCast S1x64 x2 shapeCasts_S1x64_S1x64 = x2 := shapeCast_self x2 _
  unfold logitsBlk Cert.Spec.logitsRow
  rw [e0, e1, e2]
  exact congrArg₂ (· + ·) (matmul_at _ _ p j) (broadcastTo_1b_ab_apply x2 broadcasts_S1x64_S5000x64 p j)

/-- The row maxima at row `p`. -/
theorem rowMaxBlk_at (L : FVec Ideal S5000x64 .f32) (p : Fin 5000) :
    rowMaxBlk L (ix1 p) = Cert.Spec.rowMax (fun k => L (ix2 p k)) :=
  (Cert.LibColumn.maxAxis1_apply L 0xFF800000#32 reduces_S5000x64_S5000 (.inl rfl) rfl p).trans
    (congrArg (fun z => (Finset.univ : Finset (Fin 64)).fold max z (fun k => L (ix2 p k))) bottom_word)

/-- The shifted block at `(p, j)`. -/
theorem shiftedBlk_at (L : FVec Ideal S5000x64 .f32) (p : Fin 5000) (j : Fin 64) :
    shiftedBlk L (ix2 p j) = L (ix2 p j) - Cert.Spec.rowMax (fun k => L (ix2 p k)) :=
  congrArg (fun z => L (ix2 p j) - z)
    ((Cert.LibColumn.broadcastTo_a1_ab_apply _ broadcasts_S5000x1_S5000x64 p j).trans
      ((Cert.LibColumn.shapeCast_a_a1_apply (rowMaxBlk L) shapeCasts_S5000_S5000x1 p (0 : Fin 1)).trans (rowMaxBlk_at L p)))

/-- The logarithm of row `p`'s sum of exponentials. -/
theorem logSumBlk_at (L : FVec Ideal S5000x64 .f32) (p : Fin 5000) :
    logSumBlk L (ix2 p (0 : Fin 1))
      = Ideal.log (∑ j' : Fin 64, Ideal.exp (L (ix2 p j') - Cert.Spec.rowMax (fun k => L (ix2 p k)))) :=
  congrArg Ideal.log
    ((Cert.LibColumn.shapeCast_a_a1_apply _ shapeCasts_S5000_S5000x1 p (0 : Fin 1)).trans
      ((Cert.LibColumn.sumAxis1_apply (exp (shiftedBlk L)) 0x00000000#32 reduces_S5000x64_S5000 (.inl rfl) rfl p).trans
        (Finset.sum_congr rfl fun j' _ => congrArg Ideal.exp (shiftedBlk_at L p j'))))

/-- The log-softmax of a block at `(p, j)` is the shifted log-softmax of row `p`, at `j`. -/
theorem logSoftmaxBlk_at (L : FVec Ideal S5000x64 .f32) (p : Fin 5000) (j : Fin 64) :
    logSoftmaxBlk L (ix2 p j) = Cert.Spec.logSoftmaxRow (fun k => L (ix2 p k)) j :=
  congrArg₂ (· - ·) (shiftedBlk_at L p j)
    ((Cert.LibColumn.broadcastTo_a1_ab_apply (logSumBlk L) broadcasts_S5000x1_S5000x64 p j).trans (logSumBlk_at L p))

/-- THE BODY AT AN INDEX: entry `(p, j)` of what the body stores is the shifted log-softmax, at `j`, of the logits of row
    `p` of its feature block against its weights and bias. -/
theorem k3_pay1_at (x0 : Vec Ideal S5000x128 .f32) (x1 : Vec Ideal S128x64 .f32) (x2 : Vec Ideal S1x64 .f32)
    (p : Fin 5000) (j : Fin 64) :
    k3_pay1 (F := Ideal) x0 x1 x2 (ix2 p j)
      = Cert.Spec.logSoftmaxRow (Cert.Spec.logitsRow (fun k => x0 (ix2 p k)) (fun k j' => x1 (ix2 k j')) (fun j' => x2 (ix2 (0 : Fin 1) j'))) j :=
  (congrFun (k3_pay1_eq x0 x1 x2) (ix2 p j)).trans
    ((logSoftmaxBlk_at (logitsBlk x0 x1 x2) p j).trans
      (congrArg (fun f => Cert.Spec.logSoftmaxRow f j) (funext fun j' => logitsBlk_at x0 x1 x2 p j')))

/-! ## From blocks to the array -/

/-- The zero offsets of a whole-buffer access, however spelt. -/
theorem zero_off : (![0, 0] : Fin 2 → Nat) = fun _ => 0 := funext fun a => by fin_cases a <;> rfl

/-- What the result array holds, as one function of the three arrays the region reads: entry `i` is the shifted
    log-softmax of row `i 0`'s logits, at `i 1`. -/
def finalOf (X : FVec Ideal S100000x128 .f32) (Wt : FVec Ideal S128x64 .f32) (b : FVec Ideal S1x64 .f32) : FVec Ideal S100000x64 .f32 :=
  fun i => Cert.Spec.logSoftmaxRow
    (Cert.Spec.logitsRow (fun k => X (ix2 (⟨(i 0).val, idx2_lt0 i⟩ : Fin 100000) k)) (fun k j' => Wt (ix2 k j')) (fun j' => b (ix2 (0 : Fin 1) j')))
    (⟨(i 1).val, idx2_lt1 i⟩ : Fin 64)

/-- The printed index maps over the grid: the feature window and the result window sit at block `(t, 0)`, the weights
    and the bias at block `(0, 0)`. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- One entry of a block's stored value against the array function, over the block's loads as variables: when the
    feature block is rows `5000 n …` of `X`, the other two loads are `Wt` and `b`, and the array index `i` is the block
    index `y` moved down by `5000 n` rows. -/
theorem pay_read (x0 : Vec Ideal S5000x128 .f32) (x1 : Vec Ideal S128x64 .f32) (x2 : Vec Ideal S1x64 .f32)
    (X : FVec Ideal S100000x128 .f32) (Wt : FVec Ideal S128x64 .f32) (b : FVec Ideal S1x64 .f32)
    (y : S5000x64.Idx) (i : S100000x64.Idx) (n : Nat)
    (h0 : ∀ (p : Fin 5000) (r : Fin 100000), r.val = n * 5000 + p.val → ∀ k : Fin 128, x0 (ix2 p k) = X (ix2 r k))
    (h1 : x1 = Wt) (h2 : x2 = b)
    (hi0 : (i 0).val = n * 5000 + (y 0).val) (hi1 : (i 1).val = (y 1).val) :
    k3_pay1 (F := Ideal) x0 x1 x2 y = finalOf X Wt b i := by
  obtain ⟨p, q, rfl⟩ : ∃ (p : Fin 5000) (q : Fin 64), y = ix2 p q := ⟨y 0, y 1, eq_ix2 y⟩
  subst h1 h2
  refine (k3_pay1_at x0 x1 x2 p q).trans ?_
  have hq : q = (⟨(i 1).val, idx2_lt1 i⟩ : Fin 64) := Fin.ext hi1.symm
  have hx : (fun k => x0 (ix2 p k)) = fun k => X (ix2 (⟨(i 0).val, idx2_lt0 i⟩ : Fin 100000) k) :=
    funext fun k => h0 p ⟨(i 0).val, idx2_lt0 i⟩ hi0 k
  unfold finalOf
  rw [hx, ← hq]

/-- WHAT POINT `t` WRITES BACK is block `t` of `finalOf` of the arrays as the region finds them. -/
theorem flushed_final (c : Dev nD) (t : Fin cfg3.N) :
    (dat3 (F := Ideal) V c).flushed 3 t
      = ((cfg3.win 3).blk t).view.read (Elt Ideal) (finalOf (V c main_v69) (V c main_v70) (V c main_v71)) := by
  show (cfg3.win 3).cut (grid3.coords t) ((dat3 (F := Ideal) V c).after 3 t) = _
  rw [after3_3]
  unfold out3_3
  rw [View.canon_unit_zero zero_off]
  simp only [View.ld_unit_zero (S := S5000x128) zero_off, View.ld_unit_zero (S := S128x64) zero_off, View.ld_unit_zero (S := S1x64) zero_off]
  obtain ⟨e00, e01, e10, e11, e20, e21, e30, e31⟩ := index_facts t
  funext y
  refine pay_read (iblk3 V c 0 t) (iblk3 V c 1 t) (iblk3 V c 2 t) (V c main_v69) (V c main_v70) (V c main_v71)
    ((cfg3.win 3).xinj (grid3.coords t) y) (((cfg3.win 3).blk t).view.emb y) t.val ?_ ?_ ?_ ?_ ?_
  · intro p r hr k
    show V c main_v69 (((cfg3.win 0).blk t).view.emb (ix2 p k)) = V c main_v69 (ix2 r k)
    refine congrArg (V c main_v69) (funext fun a => Fin.ext ?_)
    match a with
    | ⟨0, _⟩ => show win3_0.index t (0 : Fin 2) * 5000 + 1 * p.val = r.val; omega
    | ⟨1, _⟩ => show win3_0.index t (1 : Fin 2) * 128 + 1 * k.val = k.val; omega
  · funext z
    show V c main_v70 (((cfg3.win 1).blk t).view.emb z) = V c main_v70 z
    refine congrArg (V c main_v70) (funext fun a => Fin.ext ?_)
    match a with
    | ⟨0, _⟩ => show win3_1.index t (0 : Fin 2) * 128 + 1 * (z 0).val = (z 0).val; omega
    | ⟨1, _⟩ => show win3_1.index t (1 : Fin 2) * 64 + 1 * (z 1).val = (z 1).val; omega
  · funext z
    show V c main_v71 (((cfg3.win 2).blk t).view.emb z) = V c main_v71 z
    refine congrArg (V c main_v71) (funext fun a => Fin.ext ?_)
    match a with
    | ⟨0, _⟩ => show win3_2.index t (0 : Fin 2) * 1 + 1 * (z 0).val = (z 0).val; omega
    | ⟨1, _⟩ => show win3_2.index t (1 : Fin 2) * 64 + 1 * (z 1).val = (z 1).val; omega
  · show win3_3.index t (0 : Fin 2) * 5000 + 1 * (y 0).val = t.val * 5000 + (y 0).val; omega
  · show win3_3.index t (1 : Fin 2) * 64 + 1 * (y 1).val = (y 1).val; omega

/-- An index of the result array is in point `t`'s block iff each coordinate is in the block's range on its axis. -/
theorem mem_blk_final (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v72).slice (win3_3.rect t)).set ↔ _
  rw [View.set_slice_whole, Rect.mem_set_unit]
  exact Iff.rfl

/-- Row `r` lies in the block of point `r / 5000`, which writes back. -/
theorem covered_final (r : Fin 100000) (j : Fin 64) :
    ∃ t : Fin cfg3.N, (cfg3.win 3).flush t = true ∧ (ix2 r j : S100000x64.Idx) ∈ ((cfg3.win 3).blk t).view.set := by
  have hN : grid3.N = 20 := N_3
  have hr : r.val < 100000 := r.isLt
  have hj : j.val < 64 := j.isLt
  refine ⟨⟨r.val / 5000, by show r.val / 5000 < grid3.N; omega⟩, flush3_3 _, ?_⟩
  rw [mem_blk_final]
  obtain ⟨-, -, -, -, -, -, e30, e31⟩ := index_facts ⟨r.val / 5000, by show r.val / 5000 < grid3.N; omega⟩
  have e30' : win3_3.index ⟨r.val / 5000, by show r.val / 5000 < grid3.N; omega⟩ (0 : Fin 2) = r.val / 5000 := e30
  intro a
  match a with
  | ⟨0, _⟩ =>
    show win3_3.index _ (0 : Fin 2) * 5000 ≤ r.val ∧ r.val < win3_3.index _ (0 : Fin 2) * 5000 + 5000
    omega
  | ⟨1, _⟩ =>
    show win3_3.index _ (1 : Fin 2) * 64 ≤ j.val ∧ j.val < win3_3.index _ (1 : Fin 2) * 64 + 64
    omega

/-- After the last region, entry (r, j) of the result array is the shifted log-softmax of row r's logits
    `∑ k, X[r, k] · Wt[k, j'] + b[0, j']`, taken at j. -/
theorem final_at (c : Dev nD) (X : FVec Ideal S100000x128 .f32) (Wt : FVec Ideal S128x64 .f32) (b : FVec Ideal S1x64 .f32)
    (hX : V c main_v69 = X) (hWt : V c main_v70 = Wt) (hb : V c main_v71 = b) (r : Fin 100000) (j : Fin 64) :
    (dat3 (F := Ideal) V c).arrAt 3 cfg3.N (ix2 r j)
      = Cert.Spec.logSoftmaxRow (Cert.Spec.logitsRow (fun k => X (ix2 r k)) (fun k j' => Wt (ix2 k j')) (fun j' => b (ix2 (0 : Fin 1) j'))) j := by
  obtain ⟨t, hf, hi⟩ := covered_final r j
  refine ((dat3 (F := Ideal) V c).arrAt_apply_of_mem 3 (finalOf (V c main_v69) (V c main_v70) (V c main_v71))
    (fun t _ => flushed_final V c t) cfg3.N t (ix2 r j) t.isLt hf hi).trans ?_
  rw [hX, hWt, hb]
  rfl

end Cert.KernelIdeal.Val

end
-- ==== Proof.RefFinal.lean ====
/-
  The reference's last stages — matrix product, bias and log-softmax — read at an entry of the result.

  Row r of the logits is `L c = ∑ k, X₂[r, k] · Wt[k, c] + b[c]`. The log-softmax is computed in the shifted form:
  the row maximum `M` is the fold of `max` over the row from `−∞` (and `max (−∞) M = M`), the shifted row is
  `L c − M`, its exponentials are summed from `0`, and entry (r, j) of the result is
  `(L j − M) − log (∑ c, exp (L c − M))`. Each stage is read at explicit coordinates; the stages that change rank
  (a vector cast to a column and broadcast back) only rename the row coordinate.
-/
import proofs.«407682_j28991029248693_1_alg».proof.Proof.RefRead
import Idealize.ShloMosaic.Lib.Pipeline.Value
import Idealize.ShloMosaic.Lib.ValueIdx
import Idealize.ShloMosaic.Lib.ValueLayout
import Idealize.ShloMosaic.PureOps.Ideal.Laws
import proofs.«407682_j28991029248693_1_alg».proof.Proof.LibColumn
import proofs.«407682_j28991029248693_1_alg».proof.Proof.Spec

noncomputable section

open scoped BigOperators

namespace Cert.ReferenceIdeal.RefVal

open Idealize.ShloMosaic Idealize.ShloMosaic.ValueIdx Idealize.SL.Sem Cert.ReferenceIdeal Cert.ReferenceIdeal.Gen Cert.ReferenceIdeal.ReadP

/-- The word `0xFF800000` is `−∞`, the least extended real. -/
theorem ofBits_negInf : Ideal.ofBits .f32 0xFF800000#32 = (⊥ : EReal) := by
  simp [Ideal.ofBits, Ideal.ieee]

section Stages

variable (x0 : (⟨S100000x128, .f32⟩ : BufTy).Contents (Elt Ideal)) (x1 : (⟨S2x600000, .i32⟩ : BufTy).Contents (Elt Ideal))
  (x2 : (⟨S600000, .f32⟩ : BufTy).Contents (Elt Ideal)) (x3 : (⟨S128, .f32⟩ : BufTy).Contents (Elt Ideal))
  (x4 : (⟨S64x128, .f32⟩ : BufTy).Contents (Elt Ideal)) (x5 : (⟨S64, .f32⟩ : BufTy).Contents (Elt Ideal))

/-- Entry (r, c) of the logits: the product of row r of X₂ with column c of Wt, plus the bias at c. -/
theorem logits_at (r : Fin 100000) (c : Fin 64) :
    val_main_v89 (F := Ideal) x0 x1 x2 x3 x4 x5 (ix2 r c)
      = Cert.Spec.logitsRow
          (fun k => val_main_v84 (F := Ideal) x0 x1 x2 x3 (ix2 r k))
          (fun k j' => val_main_v85 (F := Ideal) x4 (ix2 k j'))
          (fun j' => x5 (ix1 j')) c := by
  have el : ∀ k : Fin 128, lidx_main_v86 (ix2 r c) k = ix2 r k := fun k =>
    funext fun a => Fin.ext (by match a with | ⟨0, _⟩ => rfl | ⟨1, _⟩ => rfl)
  have er : ∀ k : Fin 128, ridx_main_v86 (ix2 r c) k = ix2 k c := fun k =>
    funext fun a => Fin.ext (by match a with | ⟨0, _⟩ => rfl | ⟨1, _⟩ => rfl)
  have eb : idx_main_v87 (idx_main_v88 (ix2 r c)) = ix1 c :=
    funext fun a => Fin.ext (by match a with | ⟨0, _⟩ => rfl)
  have hs : (∑ k : Fin 128, (val_main_v84 (F := Ideal) x0 x1 x2 x3) (lidx_main_v86 (ix2 r c) k)
        * (val_main_v85 (F := Ideal) x4) (ridx_main_v86 (ix2 r c) k))
      = ∑ k : Fin 128, val_main_v84 (F := Ideal) x0 x1 x2 x3 (ix2 r k) * val_main_v85 (F := Ideal) x4 (ix2 k c) :=
    Finset.sum_congr rfl fun k _ => by rw [el k, er k]
  unfold Cert.Spec.logitsRow
  rw [val_main_v89_apply, val_main_v86_apply, val_main_v88_apply, val_main_v87_apply, eb, hs, Ideal.addf_def]

/-- The row maximum of the log-softmax, at row r, is the fold of `max` over the row of logits from `−∞`. -/
theorem rowMax_at (r : Fin 100000) (L : Fin 64 → EReal)
    (hL : ∀ c : Fin 64, val_main_v89 (F := Ideal) x0 x1 x2 x3 x4 x5 (ix2 r c) = L c) :
    val_main_call1_v2 (F := Ideal) x0 x1 x2 x3 x4 x5 (ix1 r) = Cert.Spec.rowMax L := by
  have hred : (⟨2, ![100000, 64]⟩ : Shape).Reduces [1] (⟨1, ![100000]⟩ : Shape) := by decide
  have hv0 : val_main_call1_v0 (F := Ideal) x0 x1 x2 x3 x4 x5 (ix1 r) = Cert.Spec.rowMax L := by
    unfold val_main_call1_v0 Cert.Spec.rowMax
    refine (Cert.LibColumn.hostMaxAxis1_apply (val_main_v89 (F := Ideal) x0 x1 x2 x3 x4 x5) (val_main_call1_cst (F := Ideal))
      reducesTo_S100000x64_S100000_d1 hred h_S_ r).trans ?_
    have hf : (fun k : Fin 64 => val_main_v89 (F := Ideal) x0 x1 x2 x3 x4 x5 (ix2 r k)) = L := funext hL
    have hi : val_main_call1_cst (F := Ideal) (Shape.Idx.first h_S_) = (⊥ : EReal) := ofBits_negInf
    rw [hf, hi]
  rw [val_main_call1_v2_apply, val_main_call1_v1_apply, val_main_call1_cst_0_apply, hv0, Ideal.maximumf_def,
    Ideal.ofBits_def, ofBits_negInf]
  exact max_eq_right bot_le

/-- The shifted logits at (r, c): the logit minus the row maximum. -/
theorem shifted_at (r : Fin 100000) (L : Fin 64 → EReal)
    (hL : ∀ c : Fin 64, val_main_v89 (F := Ideal) x0 x1 x2 x3 x4 x5 (ix2 r c) = L c) (c : Fin 64) :
    val_main_call1_v5 (F := Ideal) x0 x1 x2 x3 x4 x5 (ix2 r c) = L c - Cert.Spec.rowMax L := by
  have e : idx_main_call1_v3 (idx_main_call1_v4 (ix2 r c)) = ix1 r :=
    funext fun a => Fin.ext (by match a with | ⟨0, _⟩ => rfl)
  rw [val_main_call1_v5_apply, val_main_call1_v4_apply, val_main_call1_v3_apply, e, rowMax_at x0 x1 x2 x3 x4 x5 r L hL,
    hL c, Ideal.subf_def]

/-- The sum, over row r, of the exponentials of the shifted logits. -/
theorem sumExp_at (r : Fin 100000) (L : Fin 64 → EReal)
    (hL : ∀ c : Fin 64, val_main_v89 (F := Ideal) x0 x1 x2 x3 x4 x5 (ix2 r c) = L c) :
    val_main_call1_v7 (F := Ideal) x0 x1 x2 x3 x4 x5 (ix1 r)
      = ∑ c : Fin 64, Ideal.exp (L c - Cert.Spec.rowMax L) := by
  have e : ∀ k : Fin 64, idx_main_call1_v7 (ix1 r) k = ix2 r k := fun k =>
    funext fun a => Fin.ext (by match a with | ⟨0, _⟩ => rfl | ⟨1, _⟩ => rfl)
  rw [val_main_call1_v7_apply, val_main_call1_cst_1_apply, Ideal.ofBits_def, Ideal.ofBits_zero_f32, zero_add]
  refine Finset.sum_congr rfl fun k _ => ?_
  rw [e k, val_main_call1_v6_apply, shifted_at x0 x1 x2 x3 x4 x5 r L hL k, Ideal.hostUnary_exp_def]

/-- Entry (r, j) of the result is the shifted log-softmax of row r's logits at j. -/
theorem logSoftmax_at (r : Fin 100000) (L : Fin 64 → EReal)
    (hL : ∀ c : Fin 64, val_main_v89 (F := Ideal) x0 x1 x2 x3 x4 x5 (ix2 r c) = L c) (j : Fin 64) :
    val_main_v90 (F := Ideal) x0 x1 x2 x3 x4 x5 (ix2 r j) = Cert.Spec.logSoftmaxRow L j := by
  have e : idx_main_call1_v8 (idx_main_call1_v10 (ix2 r j)) = ix1 r :=
    funext fun a => Fin.ext (by match a with | ⟨0, _⟩ => rfl)
  unfold Cert.Spec.logSoftmaxRow
  rw [val_main_v90_apply, val_main_call1_v10_apply, val_main_call1_v9_apply, val_main_call1_v8_apply, e,
    sumExp_at x0 x1 x2 x3 x4 x5 r L hL, shifted_at x0 x1 x2 x3 x4 x5 r L hL j, Ideal.subf_def, Ideal.hostUnary_log_def]

end Stages

/-- Entry (r, j) of the reference's result is the shifted log-softmax of row r's logits
    `∑ k, X₂[r, k] · Wt[k, j'] + b[j']`, taken at j, where X₂ is the propagated feature matrix (stage `val_main_v84`)
    and Wt the transposed weight (stage `val_main_v85`). -/
theorem ref_final_at (x0 : (⟨S100000x128, .f32⟩ : BufTy).Contents (Elt Ideal)) (x1 : (⟨S2x600000, .i32⟩ : BufTy).Contents (Elt Ideal))
    (x2 : (⟨S600000, .f32⟩ : BufTy).Contents (Elt Ideal)) (x3 : (⟨S128, .f32⟩ : BufTy).Contents (Elt Ideal))
    (x4 : (⟨S64x128, .f32⟩ : BufTy).Contents (Elt Ideal)) (x5 : (⟨S64, .f32⟩ : BufTy).Contents (Elt Ideal))
    (r : Fin 100000) (j : Fin 64) :
    val_main_v90 (F := Ideal) x0 x1 x2 x3 x4 x5 (ix2 r j)
      = Cert.Spec.logSoftmaxRow (Cert.Spec.logitsRow
          (fun k => val_main_v84 (F := Ideal) x0 x1 x2 x3 (ix2 r k))
          (fun k j' => val_main_v85 (F := Ideal) x4 (ix2 k j'))
          (fun j' => x5 (ix1 j'))) j :=
  logSoftmax_at x0 x1 x2 x3 x4 x5 r _ (fun c => logits_at x0 x1 x2 x3 x4 x5 r c) j

end Cert.ReferenceIdeal.RefVal

end
-- ==== Proof.RowRange.lean ====
/-
  The range a row index has to lie in: a 32-bit word whose value, read unsigned, is below the 100000 rows it
  indexes. Such a word is non-negative as a signed word and below 100000 as a signed word, and conversely.
-/
import Idealize.ShloMosaic.PureOps

namespace Cert.Spec

/-- A 32-bit index word in range of an axis of 100000 rows. -/
def InRange (i : BitVec 32) : Prop := i.toNat < 100000

end Cert.Spec
-- ==== Proof.TakeMask.lean ====
/-
  The kernel's row gather with its in-bounds mask. The row indices are 32-bit words; a negative one is wrapped by the
  number of rows (100000), the wrapped index is tested against 0 and 99999 as a signed word, and where the test fails
  the gathered row is replaced by the not-a-number word. Where every row index, read unsigned, is below 100000 the
  word is non-negative as a signed word, so the wrap leaves it alone, both comparisons hold, the conjunction over the
  column's one entry is 1 at every row, and the select returns the gathered array itself: the gather-with-fill is the
  plain gather at the wrapped indices.
-/
import proofs.«407682_j28991029248693_1_alg».proof.Proof.Gen.KernelIdeal.Frame
import Idealize.ShloMosaic.Lib.StableHlo.Run
import Idealize.ShloMosaic.Lib.StableHlo.Predicate
import Idealize.ShloMosaic.Lib.ValueIdx
import Idealize.ShloMosaic.Lib.ReduceAll
import proofs.«407682_j28991029248693_1_alg».proof.Proof.RowRange

noncomputable section

open scoped BigOperators

namespace Cert.KernelIdeal.Val

open Idealize.ShloMosaic Idealize.ShloMosaic.TcCoe Idealize.ShloMosaic.ValueIdx Idealize.ShloMosaic.StableHlo Idealize.SL.Sem Cert.KernelIdeal Cert.KernelIdeal.Gen

/-! ## Words -/

/-- A word in range is non-negative as a signed word: the wrap of a negative index leaves it alone. -/
theorem wrap_inRange (w : BitVec 32) (hw : w.toNat < 100000) :
    Scalar.select (IntOp.cmpi .slt w 0#32) (IntOp.addi w 100000#32) w = w := by
  have h0 : (0#32 : BitVec 32).toNat = 0 := rfl
  have h : ¬ IntOp.cmpi .slt w 0#32 = 1#1 := by
    rw [Predicate.slt_iff_toNat (by omega) (by omega)]
    omega
  exact if_neg h

/-- A word in range passes both signed comparisons of the in-bounds test, against 0 from below and 99999 from above. -/
theorem inb_inRange (w : BitVec 32) (hw : w.toNat < 100000) :
    IntOp.andi (IntOp.cmpi .sge w 0#32) (IntOp.cmpi .sle w 99999#32) = 1#1 := by
  have h0 : (0#32 : BitVec 32).toNat = 0 := rfl
  have h9 : (99999#32 : BitVec 32).toNat = 99999 := rfl
  refine IntOp.andi_eq_one.2 ⟨(Predicate.sge_iff_toNat (by omega) (by omega)).2 (by omega),
    (Predicate.sle_iff_toNat (by omega) (by omega)).2 (by omega)⟩

/-! ## Arrays -/

/-- What holds of every element of an array holds of every element of a broadcast of it: a broadcast only re-reads. -/
theorem bcast_forall {α : Type} {s t : Shape} (dims : Fin s.rank → Fin t.rank) (h : s.BroadcastsInDim t dims)
    (x : s.Idx → α) (P : α → Prop) (hx : ∀ j, P (x j)) (i : t.Idx) : P (broadcastInDim t dims h x i) := by
  unfold broadcastInDim
  exact hx _

/-- A left fold by `and` from 1 over one-bit words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by `and` from 1 of an array of ones is 1 at every result index. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  exact foldl_andi_one x hx _

/-- A value moved to a typed reference's buffer type and back is the value: the two transports are inverse. -/
theorem ofBuf_toBuf {T : BufTy} {Val : EltTy → Type} (x : TRef sig T) (v : T.Contents Val) : x.ofBuf (x.toBuf v) = v := by
  obtain ⟨r, rfl, _, _⟩ := x
  rfl

/-- A select whose condition is 1 everywhere is its first operand. -/
theorem select_of_all_one {α : Type} {s : Shape} (c : IVec s 1) (a b : s.Idx → α) (h : ∀ i, c i = 1#1) :
    select c a b = a := by
  funext i
  rw [select_apply, h i, select_one]

/-- The row indices with a negative one wrapped by the number of rows, as a column: what both gathers are indexed by. -/
def wrappedRows (rows : IVec S700000 32) : IVec S700000x1 32 :=
  broadcastInDim S700000x1 ![0] bcast_S700000_S700000x1_0
    (select (cmpi .slt rows (broadcastInDim S700000 ![] bcast_S_S700000 (constantI S_ 32 0#32)))
      (addi rows (broadcastInDim S700000 ![] bcast_S_S700000 (constantI S_ 32 100000#32))) rows)

/-- Every wrapped row index is in range when every row index is: the wrap is the identity there. -/
theorem wrapped_inRange (rows : IVec S700000 32) (hrange : ∀ e : Fin 700000, Cert.Spec.InRange (rows (ix1 e)))
    (i : S700000x1.Idx) : (wrappedRows rows i).toNat < 100000 := by
  unfold wrappedRows
  refine bcast_forall _ _ _ (fun w : BitVec 32 => w.toNat < 100000) (fun j => ?_) i
  obtain ⟨e, rfl⟩ : ∃ e : Fin 700000, j = ix1 e := ⟨j 0, eq_ix1 j⟩
  have h : (rows (ix1 e)).toNat < 100000 := hrange e
  show (Scalar.select (IntOp.cmpi .slt (rows (ix1 e)) 0#32) (IntOp.addi (rows (ix1 e)) 100000#32) (rows (ix1 e))).toNat < 100000
  rw [wrap_inRange _ h]
  exact h

/-- The in-bounds mask of a column of in-range indices, broadcast over the 128 feature columns, is 1 everywhere. -/
theorem mask_one (col : IVec S700000x1 32) (hcol : ∀ i, (col i).toNat < 100000) (j : S700000x128.Idx) :
    broadcastInDim S700000x128 ![0] bcast_S700000_S700000x128_0
      (Host.reduce IntOp.andi
        (andi (cmpi .sge col (broadcastInDim S700000x1 ![] bcast_S_S700000x1 (constantI S_ 32 0#32)))
          (cmpi .sle col (broadcastInDim S700000x1 ![0, 1] bcast_S1x1_S700000x1_0_1
            (broadcastInDim S1x1 ![1] bcast_S1_S1x1_1 (constantI S1 32 99999#32)))))
        (constantI S_ 1 1#1) reducesTo_S700000x1_S700000_d1 h_S_) j = 1#1 := by
  refine bcast_forall _ _ _ (fun w : BitVec 1 => w = 1#1) (fun k => ?_) j
  refine reduce_andi_of_all _ _ _ _ (fun i => ?_) rfl k
  show IntOp.andi (IntOp.cmpi .sge (col i) 0#32) (IntOp.cmpi .sle (col i) 99999#32) = 1#1
  exact inb_inRange (col i) (hcol i)

/-- Hop 1: from contents `W` whose row-index buffer is in range everywhere, the gather-with-fill leaves in its result
    buffer the plain gather of the feature matrix at the wrapped row indices. -/
theorem take1 (W : Valuation τ sig (Elt Ideal)) (rows : IVec S700000 32) (X : FVec Ideal S100000x128 .f32)
    (hrows : W (Proc.devRef .tc main_v29) = rows) (hX : W (Proc.devRef .tc main_v23) = X)
    (hrange : ∀ e : Fin 700000, Cert.Spec.InRange (rows (ix1 e))) :
    StableHlo.after (hostOps1_3 (F := Ideal)) W (Proc.devRef .tc main_v58)
      = Host.gather gather_S100000x128_S700000x1_S700000x128_1_0_n_n_0_1_1128 X (wrappedRows rows) := by
  have e29 : (TRef.of (T := ⟨S700000, .i32⟩) main_v29).ofBuf (W (Proc.devRef .tc main_v29)) = rows := hrows
  have eX : (TRef.of (T := ⟨S100000x128, .f32⟩) main_v23).ofBuf (W (Proc.devRef .tc main_v23)) = X := hX
  have eOut : ∀ v : (⟨S700000x128, .f32⟩ : BufTy).Contents (Elt Ideal),
      (TRef.of (T := ⟨S700000x128, .f32⟩) main_v58).toBuf v = v := fun _ => rfl
  simp only [hostOps1_3]
  after_results_simp
  simp only [ofBuf_toBuf]
  rw [eOut, e29, eX]
  exact select_of_all_one _ _ _ (mask_one (wrappedRows rows) (wrapped_inRange rows hrange))

/-- Hop 2: the same for the second gather-with-fill, of the once-propagated features. -/
theorem take2 (W : Valuation τ sig (Elt Ideal)) (rows : IVec S700000 32) (X : FVec Ideal S100000x128 .f32)
    (hrows : W (Proc.devRef .tc main_v29) = rows) (hX : W (Proc.devRef .tc main_v63) = X)
    (hrange : ∀ e : Fin 700000, Cert.Spec.InRange (rows (ix1 e))) :
    StableHlo.after (hostOps2_1 (F := Ideal)) W (Proc.devRef .tc main_v64)
      = Host.gather gather_S100000x128_S700000x1_S700000x128_1_0_n_n_0_1_1128 X (wrappedRows rows) := by
  have e29 : (TRef.of (T := ⟨S700000, .i32⟩) main_v29).ofBuf (W (Proc.devRef .tc main_v29)) = rows := hrows
  have eX : (TRef.of (T := ⟨S100000x128, .f32⟩) main_v63).ofBuf (W (Proc.devRef .tc main_v63)) = X := hX
  have eOut : ∀ v : (⟨S700000x128, .f32⟩ : BufTy).Contents (Elt Ideal),
      (TRef.of (T := ⟨S700000x128, .f32⟩) main_v64).toBuf v = v := fun _ => rfl
  simp only [hostOps2_1]
  after_results_simp
  simp only [ofBuf_toBuf]
  rw [eOut, e29, eX]
  exact select_of_all_one _ _ _ (mask_one (wrappedRows rows) (wrapped_inRange rows hrange))

end Cert.KernelIdeal.Val

end
-- ==== Proof.IndexRange.lean ====
/-
  From the precondition to the range of every row index. The precondition is a conjunction of seven one-bit words, each the
  `and`-reduction of an elementwise test; the last two test every edge source `r` for `0 ≤ r` and for `r < 100000`, both as
  signed words. A conjunction of bits that is one has every conjunct one; an `and`-reduction that is one has every reduced
  bit one; and a signed word that is non-negative and below 100000 has its top bit clear, so its unsigned value is below
  100000 too. The 700000-long index vector is the 600000 edge sources followed by the positions 0 … 99999 of the self-loops:
  an entry of the first part is in range by the precondition, and the entry at position `e ≥ 600000` is the word of
  `e - 600000 < 100000`.
-/
import proofs.«407682_j28991029248693_1_alg».proof.Proof.Gen.KernelIdeal.Frame
import proofs.«407682_j28991029248693_1_alg».proof.Proof.Gen.Pre_finite_inputs
import Idealize.ShloMosaic.Lib.StableHlo.Predicate
import Idealize.ShloMosaic.Lib.ValueIdx
import Idealize.ShloMosaic.Lib.ReduceAll
import Idealize.ShloMosaic.Lib.Pipeline.Value
import proofs.«407682_j28991029248693_1_alg».proof.Proof.RowRange

noncomputable section

open scoped BigOperators

namespace Cert.KernelIdeal.Val

open Idealize.ShloMosaic Idealize.ShloMosaic.TcCoe Idealize.ShloMosaic.ValueIdx Idealize.SL.Sem Cert.KernelIdeal Cert.KernelIdeal.Gen

/-- The row index of every one of the 700000 messages, as the kernel's host code builds it: the edges' sources
    followed by the self-loops' 0 … 99999. -/
def rowsOf (a1 : IVec S2x600000 32) : IVec S700000 32 :=
  concatenate S700000 0 [⟨S600000, shapeCast S600000 (extractStridedSlice S1x600000 ![0, 0] a1 slices_S2x600000_S1x600000_0_0) shapeCasts_S1x600000_S600000⟩,
    ⟨S100000, iotaInDim S100000 32 0⟩] concatenates_S600000_S100000_S700000_d0

/-- A signed 32-bit word that is at least 0 and below 100000 has unsigned value below 100000: a non-negative signed word
    has its top bit clear, so its signed and unsigned values agree. -/
theorem word_inRange (w : BitVec 32) (h0 : IntOp.cmpi .sge w 0#32 = 1#1) (h1 : IntOp.cmpi .slt w 100000#32 = 1#1) :
    Cert.Spec.InRange w := by
  have g0 : (0#32 : BitVec 32).toInt ≤ w.toInt := IntOp.cmpi_sge.1 h0
  have g1 : w.toInt < (100000#32 : BitVec 32).toInt := IntOp.cmpi_slt.1 h1
  have e0 : (0#32 : BitVec 32).toInt = 0 := by decide
  have e1 : (100000#32 : BitVec 32).toInt = 100000 := by decide
  rw [e0] at g0
  rw [e1] at g1
  show w.toNat < 100000
  cases hm : w.msb with
  | true =>
    have hneg := BitVec.toInt_neg_of_msb_true hm
    omega
  | false =>
    rw [BitVec.toInt_eq_toNat_of_msb hm] at g1
    omega

/-- The edges' source indices: row 0 of the [2, 600000] edge table, as a vector of 600000 words. -/
def srcRow (a1 : IVec S2x600000 32) : IVec S600000 32 :=
  shapeCast S600000 (extractStridedSlice S1x600000 ![0, 0] a1 slices_S2x600000_S1x600000_0_0) shapeCasts_S1x600000_S600000

/-- Below position 600000 the index vector is the edge sources. -/
theorem rowsOf_left (a1 : IVec S2x600000 32) (e : Fin 700000) (he : e.val < 600000) :
    rowsOf a1 (ix1 e) = srcRow a1 (ix1 (⟨e.val, he⟩ : Fin 600000)) :=
  concatenate_pair_apply_left (0 : Fin S700000.rank) (srcRow a1) (iotaInDim S100000 32 0)
    concatenates_S600000_S100000_S700000_d0 (ix1 e) rfl (ix1 (⟨e.val, he⟩ : Fin 600000))
    (by intro b; match b with | ⟨0, _⟩ => rfl)

/-- From position 600000 on the index vector counts 0, 1, …: position `e` holds the word of `e - 600000`. -/
theorem rowsOf_right (a1 : IVec S2x600000 32) (e : Fin 700000) (he : 600000 ≤ e.val) :
    rowsOf a1 (ix1 e) = BitVec.ofNat 32 (e.val - 600000) :=
  concatenate_pair_apply_right (0 : Fin S700000.rank) (srcRow a1) (iotaInDim S100000 32 0)
    concatenates_S600000_S100000_S700000_d0 (ix1 e) rfl rfl
    (ix1 (⟨e.val - 600000, by have := e.isLt; omega⟩ : Fin 100000))
    (by intro b hb; match b, hb with | ⟨0, _⟩, hb => exact absurd rfl hb)
    (by show e.val - 600000 + 600000 = e.val; omega)

variable [hPre : Cert.Pre_finite_inputs.Facts]

/-- Under the precondition every edge source passes both signed tests: the last two conjuncts of the precondition are the
    `and`-reductions of exactly these two tests over all 600000 sources. -/
theorem srcRow_cmp (a0 : FVec Ideal S100000x128 .f32) (a1 : IVec S2x600000 32) (a2 : FVec Ideal S600000 .f32) (a3 : FVec Ideal S128 .f32)
    (a4 : FVec Ideal S64x128 .f32) (a5 : FVec Ideal S64 .f32)
    (hpre : Cert.Pre_finite_inputs.fn (F := Ideal) a0 a1 a2 a3 a4 a5 = fun _ => 1#1) (i : S600000.Idx) :
    IntOp.cmpi .sge (srcRow a1 i) 0#32 = 1#1 ∧ IntOp.cmpi .slt (srcRow a1 i) 100000#32 = 1#1 := by
  have h := congrFun hpre ix0
  dsimp only [Cert.Pre_finite_inputs.fn, Cert.Pre_finite_inputs.fn_part1, Cert.Pre_finite_inputs.fn_part2,
    Idealize.ShloMosaic.andi] at h
  obtain ⟨h29, h34⟩ := IntOp.andi_eq_one.1 h
  obtain ⟨_, h28⟩ := IntOp.andi_eq_one.1 h29
  have k28 := Host.reduce_andi_eq_one _ _ _ _ _ h28 i (funext fun d => d.elim0)
  have k34 := Host.reduce_andi_eq_one _ _ _ _ _ h34 i (funext fun d => d.elim0)
  exact ⟨k28, k34⟩

/-- Under the precondition every row index is in range. -/
theorem rows_in_range (a0 : FVec Ideal S100000x128 .f32) (a1 : IVec S2x600000 32) (a2 : FVec Ideal S600000 .f32) (a3 : FVec Ideal S128 .f32)
    (a4 : FVec Ideal S64x128 .f32) (a5 : FVec Ideal S64 .f32)
    (hpre : Cert.Pre_finite_inputs.fn (F := Ideal) a0 a1 a2 a3 a4 a5 = fun _ => 1#1) (e : Fin 700000) :
    Cert.Spec.InRange (rowsOf a1 (ix1 e)) := by
  by_cases he : e.val < 600000
  · rw [rowsOf_left a1 e he]
    obtain ⟨h0, h1⟩ := srcRow_cmp a0 a1 a2 a3 a4 a5 hpre (ix1 (⟨e.val, he⟩ : Fin 600000))
    exact word_inRange _ h0 h1
  · rw [rowsOf_right a1 e (Nat.le_of_not_lt he)]
    show (BitVec.ofNat 32 (e.val - 600000)).toNat < 100000
    rw [BitVec.toNat_ofNat]
    have hlt := e.isLt
    omega

end Cert.KernelIdeal.Val

end
-- ==== Proof.KernelChain.lean ====
/-
  The kernel's value, boundary by boundary.

  The kernel's program runs four regions among stretches of host operations; at every boundary between two of
  them the buffers that later segments read hold the stages of the reference computed from the same launch
  contents: the gate vector and the edge weights after the first stretch, the gated features after the first
  region, the row and column indices, the normalisation coefficients and the gathered features before the first
  message region, the scaled messages after it, and so on to the logits' log-softmax.  Each step is either a host
  stretch read back operation by operation, or a region's output array read entry by entry.
-/
import proofs.«407682_j28991029248693_1_alg».proof.Proof.Gen.KernelIdeal.Frame
import proofs.«407682_j28991029248693_1_alg».proof.Proof.RefRead
import proofs.«407682_j28991029248693_1_alg».proof.Proof.RegionGate
import proofs.«407682_j28991029248693_1_alg».proof.Proof.RegionMsg1
import proofs.«407682_j28991029248693_1_alg».proof.Proof.RegionMsg2
import proofs.«407682_j28991029248693_1_alg».proof.Proof.RegionFinal
import proofs.«407682_j28991029248693_1_alg».proof.Proof.RefFinal
import proofs.«407682_j28991029248693_1_alg».proof.Proof.TakeMask
import proofs.«407682_j28991029248693_1_alg».proof.Proof.IndexRange
import proofs.«407682_j28991029248693_1_alg».proof.Proof.LibColumn
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Val

open Idealize.ShloMosaic Idealize.ShloMosaic.TcCoe Idealize.ShloMosaic.ValueIdx Idealize.ShloMosaic.StableHlo Idealize.SL.Sem
open Cert.KernelIdeal Cert.KernelIdeal.Gen
open Cert.ReferenceIdeal.ReadP

variable (m : (ℓ : Loc nD τ sig) → Buf (Elt Ideal) ℓ) (ρ : Dev nD → PrngReg) (c : Dev nD)
variable (x0 : FVec Ideal S100000x128 .f32) (x1 : IVec S2x600000 32) (x2 : FVec Ideal S600000 .f32) (x3 : FVec Ideal S128 .f32)
  (x4 : FVec Ideal S64x128 .f32) (x5 : FVec Ideal S64 .f32)

/-! ## After the first host stretch: the edge weights and the gate row -/

/-- A buffer the first stretch does not write keeps its launch contents. -/
theorem W1_arg0 : W1 m ρ c (Proc.devRef .tc main_arg0) = m ((c.tc : Thread nD τ).loc main_arg0) := by
  show StableHlo.after hostOps0 (W0 m ρ c) (Proc.devRef .tc main_arg0) = _
  after_results_simp
theorem W1_arg1 : W1 m ρ c (Proc.devRef .tc main_arg1) = m ((c.tc : Thread nD τ).loc main_arg1) := by
  show StableHlo.after hostOps0 (W0 m ρ c) (Proc.devRef .tc main_arg1) = _
  after_results_simp

/-- The edge weights: sigmoid times the non-zero mask, the reference's own stage. -/
theorem W1_v10 (h2 : m ((c.tc : Thread nD τ).loc main_arg2) = x2) :
    W1 m ρ c (Proc.devRef .tc main_v10) = val_main_v10 (F := Ideal) x2 := by
  show StableHlo.after hostOps0 (W0 m ρ c) (Proc.devRef .tc main_v10) = _
  after_results_simp
  rw [show W0 m ρ c (Proc.devRef .tc main_arg2) = x2 from h2]
  rfl

/-- The gate vector, as the one row the first region reads. -/
theorem W1_v22 (h3 : m ((c.tc : Thread nD τ).loc main_arg3) = x3) :
    W1 m ρ c (Proc.devRef .tc main_v22) = shapeCast S1x128 (val_main_v21 (F := Ideal) x3) shapeCasts_S128_S1x128 := by
  show StableHlo.after hostOps0 (W0 m ρ c) (Proc.devRef .tc main_v22) = _
  after_results_simp
  rw [show W0 m ρ c (Proc.devRef .tc main_arg3) = x3 from h3]
  rfl

/-! ## After the first region: the gated features -/

/-- Entry (r, f) of the gated features is x[r, f] times the gate at f: the reference's product with the gate
    broadcast over the rows. -/
theorem W2_v23 (h0 : m ((c.tc : Thread nD τ).loc main_arg0) = x0) (h3 : m ((c.tc : Thread nD τ).loc main_arg3) = x3) :
    W2 m ρ c (Proc.devRef .tc main_v23) = val_main_v24 (F := Ideal) x0 x3 := by
  refine funext fun (i : S100000x128.Idx) => ?_
  obtain ⟨r, f, rfl⟩ : ∃ (r : Fin 100000) (f : Fin 128), i = ix2 r f := ⟨i 0, i 1, eq_ix2 i⟩
  refine ((congrFun (W2_arr m ρ c 2) (ix2 r f)).trans
    (gate_at (V1 m ρ) c x0 _ ((W1_arg0 m ρ c).trans h0) (W1_v22 m ρ c x3 h3) r f)).trans ?_
  rw [val_main_v24_apply, val_main_v23_apply, val_main_v22_apply, shapeCast_a_1a_apply]
  show x0 (ix2 r f) * _ = x0 (ix2 r f) * _
  congr 2
  funext a; match a with | ⟨0, _⟩ => rfl

/-- Buffers the first region does not own keep their contents across it. -/
theorem W2_arg1 : W2 m ρ c (Proc.devRef .tc main_arg1) = m ((c.tc : Thread nD τ).loc main_arg1) :=
  (W2_of_ne m ρ c main_arg1 (by decide)).trans (W1_arg1 m ρ c)
theorem W2_v10 (h2 : m ((c.tc : Thread nD τ).loc main_arg2) = x2) :
    W2 m ρ c (Proc.devRef .tc main_v10) = val_main_v10 (F := Ideal) x2 :=
  (W2_of_ne m ρ c main_v10 (by decide)).trans (W1_v10 m ρ c x2 h2)

/-! ## Before the first message region: indices, coefficients, gathered features -/

section
variable [hPre : Cert.Pre_finite_inputs.Facts]

/-- Finishes, by rewriting, the results the one-pass simplification cannot reach: those inside a concatenate's operand list. -/
local macro "results_rw" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

/-- The index and weight vectors with the self-loops appended, and the degree's two tests, from ANY contents holding
    the edge list and the edge weights: the reference's stages. -/
theorem indices_of (V : Valuation τ sig (Elt Ideal))
    (h1 : V (Proc.devRef .tc main_arg1) = x1) (h10 : V (Proc.devRef .tc main_v10) = val_main_v10 (F := Ideal) x2) :
    StableHlo.after hostOps1 V (Proc.devRef .tc main_v29) = val_main_v30 (F := Ideal) x1
    ∧ StableHlo.after hostOps1 V (Proc.devRef .tc main_v30) = val_main_v31 (F := Ideal) x1
    ∧ StableHlo.after hostOps1 V (Proc.devRef .tc main_v32) = val_main_v33 (F := Ideal) x2
    ∧ StableHlo.after hostOps1 V (Proc.devRef .tc main_v37) = val_main_v38 (F := Ideal) x1 x2
    ∧ StableHlo.after hostOps1 V (Proc.devRef .tc main_v40) = val_main_v41 (F := Ideal) x1 x2
    ∧ StableHlo.after hostOps1 V (Proc.devRef .tc main_cst_9) = val_main_cst_9 (F := Ideal) := by
  refine ⟨?_, ?_, ?_, ?_, ?_, ?_⟩
  · after_results_simp; results_rw; rw [h1]; rfl
  · after_results_simp; results_rw; rw [h1]; rfl
  · after_results_simp; results_rw; rw [h10]; rfl
  · after_results_simp; results_rw; rw [h1, h10]; rfl
  · after_results_simp; results_rw; rw [h1, h10]; rfl
  · after_results_simp; rfl

/-- The degree's inverse root where it is positive, zero elsewhere (the inlined select), from ANY contents holding
    the two tests' stages: the reference's stage. -/
theorem dinv_of (V : Valuation τ sig (Elt Ideal))
    (h37 : V (Proc.devRef .tc main_v37) = val_main_v38 (F := Ideal) x1 x2) (h40 : V (Proc.devRef .tc main_v40) = val_main_v41 (F := Ideal) x1 x2)
    (hc9 : V (Proc.devRef .tc main_cst_9) = val_main_cst_9 (F := Ideal)) :
    StableHlo.after hostOps1_1 V (Proc.devRef .tc main_v41) = val_main_v42 (F := Ideal) x1 x2 := by
  simp only [val_main_v42, val_main_call0_v1, val_main_call0_v0]
  generalize val_main_v38 (F := Ideal) x1 x2 = A at h37 ⊢
  generalize val_main_v41 (F := Ideal) x1 x2 = B at h40 ⊢
  generalize val_main_cst_9 (F := Ideal) = C at hc9 ⊢
  have e37 : (TRef.of (T := ⟨S100000, .i1⟩) main_v37).ofBuf (V (Proc.devRef .tc main_v37)) = A := h37
  have e40 : (TRef.of (T := ⟨S100000, .f32⟩) main_v40).ofBuf (V (Proc.devRef .tc main_v40)) = B := h40
  have ec9 : (TRef.of (T := ⟨S_, .f32⟩) main_cst_9).ofBuf (V (Proc.devRef .tc main_cst_9)) = C := hc9
  have eOut : ∀ v : (⟨S100000, .f32⟩ : BufTy).Contents (Elt Ideal), (TRef.of (T := ⟨S100000, .f32⟩) main_v41).toBuf v = v := fun _ => rfl
  simp only [hostOps1_1]
  after_results_simp
  simp only [ofBuf_toBuf]
  rw [eOut, e37, e40, ec9] <;> rfl

/-- The normalisation coefficient of every message, from ANY contents holding the index and weight vectors and the
    inverse roots. -/
theorem norm_of (V : Valuation τ sig (Elt Ideal))
    (h29 : V (Proc.devRef .tc main_v29) = val_main_v30 (F := Ideal) x1) (h30 : V (Proc.devRef .tc main_v30) = val_main_v31 (F := Ideal) x1)
    (h32 : V (Proc.devRef .tc main_v32) = val_main_v33 (F := Ideal) x2) (h41 : V (Proc.devRef .tc main_v41) = val_main_v42 (F := Ideal) x1 x2) :
    StableHlo.after hostOps1_2 V (Proc.devRef .tc main_v57) = val_main_v58 (F := Ideal) x1 x2 := by
  after_results_simp
  rw [h29, h30, h32, h41]
  rfl

/-- What the inlined select leaves untouched. -/
theorem keep_11 (V : Valuation τ sig (Elt Ideal)) (r : Ref sig .tc) (hr : r = main_v29 ∨ r = main_v30 ∨ r = main_v32) :
    StableHlo.after hostOps1_1 V (Proc.devRef .tc r) = V (Proc.devRef .tc r) := by
  rcases hr with rfl | rfl | rfl <;> after_results_simp

/-- What the stretches up to the first message region leave untouched. -/
theorem keep_1_12 (V : Valuation τ sig (Elt Ideal)) (r : Ref sig .tc) (hr : r = main_v29 ∨ r = main_v30 ∨ r = main_v23) :
    StableHlo.after hostOps1_2 (StableHlo.after hostOps1_1 V) (Proc.devRef .tc r) = V (Proc.devRef .tc r) := by
  rcases hr with rfl | rfl | rfl <;> after_results_simp
theorem keep_13_14 (V : Valuation τ sig (Elt Ideal)) (r : Ref sig .tc) (hr : r = main_v29 ∨ r = main_v30 ∨ r = main_v57) :
    StableHlo.after hostOps1_4 (StableHlo.after hostOps1_3 V) (Proc.devRef .tc r) = V (Proc.devRef .tc r) := by
  rcases hr with rfl | rfl | rfl <;> after_results_simp

/-- The coefficients as a column, and the gather-with-fill's stretch leaving them untouched. -/
theorem col_of_14 (V : Valuation τ sig (Elt Ideal)) :
    StableHlo.after hostOps1_4 V (Proc.devRef .tc main_v59)
      = shapeCast S700000x1 (V (Proc.devRef .tc main_v57)) shapeCasts_S700000_S700000x1 := by
  after_results_simp
  rfl
theorem keep_13 (V : Valuation τ sig (Elt Ideal)) :
    StableHlo.after hostOps1_3 V (Proc.devRef .tc main_v57) = V (Proc.devRef .tc main_v57) := by
  after_results_simp

/-- The facts at the entry of the first message region (boundary 7) and just before its gather (boundary 5). -/
theorem W3_facts (h1 : m ((c.tc : Thread nD τ).loc main_arg1) = x1) (h2 : m ((c.tc : Thread nD τ).loc main_arg2) = x2) :
    StableHlo.after hostOps1 (W2 m ρ c) (Proc.devRef .tc main_v29) = val_main_v30 (F := Ideal) x1
    ∧ StableHlo.after hostOps1 (W2 m ρ c) (Proc.devRef .tc main_v30) = val_main_v31 (F := Ideal) x1
    ∧ StableHlo.after hostOps1 (W2 m ρ c) (Proc.devRef .tc main_v32) = val_main_v33 (F := Ideal) x2
    ∧ StableHlo.after hostOps1 (W2 m ρ c) (Proc.devRef .tc main_v37) = val_main_v38 (F := Ideal) x1 x2
    ∧ StableHlo.after hostOps1 (W2 m ρ c) (Proc.devRef .tc main_v40) = val_main_v41 (F := Ideal) x1 x2
    ∧ StableHlo.after hostOps1 (W2 m ρ c) (Proc.devRef .tc main_cst_9) = val_main_cst_9 (F := Ideal) :=
  indices_of x1 x2 (W2 m ρ c) ((W2_arg1 m ρ c).trans h1) (W2_v10 m ρ c x2 h2)

theorem W5_v29 (h1 : m ((c.tc : Thread nD τ).loc main_arg1) = x1) (h2 : m ((c.tc : Thread nD τ).loc main_arg2) = x2) :
    W5 m ρ c (Proc.devRef .tc main_v29) = val_main_v30 (F := Ideal) x1 :=
  (keep_1_12 (W3 m ρ c) main_v29 (.inl rfl)).trans (W3_facts m ρ c x1 x2 h1 h2).1
theorem W5_v30 (h1 : m ((c.tc : Thread nD τ).loc main_arg1) = x1) (h2 : m ((c.tc : Thread nD τ).loc main_arg2) = x2) :
    W5 m ρ c (Proc.devRef .tc main_v30) = val_main_v31 (F := Ideal) x1 :=
  (keep_1_12 (W3 m ρ c) main_v30 (.inr (.inl rfl))).trans (W3_facts m ρ c x1 x2 h1 h2).2.1
theorem W5_v57 (h1 : m ((c.tc : Thread nD τ).loc main_arg1) = x1) (h2 : m ((c.tc : Thread nD τ).loc main_arg2) = x2) :
    W5 m ρ c (Proc.devRef .tc main_v57) = val_main_v58 (F := Ideal) x1 x2 :=
  have h := W3_facts m ρ c x1 x2 h1 h2
  norm_of x1 x2 (W4 m ρ c) ((keep_11 (W3 m ρ c) main_v29 (.inl rfl)).trans h.1) ((keep_11 (W3 m ρ c) main_v30 (.inr (.inl rfl))).trans h.2.1)
    ((keep_11 (W3 m ρ c) main_v32 (.inr (.inr rfl))).trans h.2.2.1) (dinv_of x1 x2 (W3 m ρ c) h.2.2.2.1 h.2.2.2.2.1 h.2.2.2.2.2)

/-- The gated features are still in place there. -/
theorem W5_v23 : W5 m ρ c (Proc.devRef .tc main_v23) = W2 m ρ c (Proc.devRef .tc main_v23) := by
  refine (keep_1_12 (W3 m ρ c) main_v23 (.inr (.inr rfl))).trans ?_
  show StableHlo.after hostOps1 (W2 m ρ c) (Proc.devRef .tc main_v23) = _
  after_results_simp

/-- The kernel's row indices are the reference's. -/
theorem rowsOf_eq : rowsOf x1 = val_main_v30 (F := Ideal) x1 := rfl

/-- The wrapped row indices as a column are the reference's gather indices, in both hops. -/
theorem wrapped_eq1 : wrappedRows (val_main_v30 (F := Ideal) x1) = val_main_v65 (F := Ideal) x1 := rfl
theorem wrapped_eq2 : wrappedRows (val_main_v30 (F := Ideal) x1) = val_main_v78 (F := Ideal) x1 := rfl

/-- Every row index is in range, under the precondition. -/
theorem rows_ok (hpre : Cert.Pre_finite_inputs.fn (F := Ideal) x0 x1 x2 x3 x4 x5 = fun _ => 1#1) (e : Fin 700000) :
    Cert.Spec.InRange (val_main_v30 (F := Ideal) x1 (ix1 e)) :=
  (rowsOf_eq x1) ▸ rows_in_range x0 x1 x2 x3 x4 x5 hpre e

/-- The gathered features of hop 1: with every row index in range the gather-with-fill is the reference's gather. -/
theorem W7_v58 (h0 : m ((c.tc : Thread nD τ).loc main_arg0) = x0) (h1 : m ((c.tc : Thread nD τ).loc main_arg1) = x1)
    (h2 : m ((c.tc : Thread nD τ).loc main_arg2) = x2) (h3 : m ((c.tc : Thread nD τ).loc main_arg3) = x3)
    (hpre : Cert.Pre_finite_inputs.fn (F := Ideal) x0 x1 x2 x3 x4 x5 = fun _ => 1#1) :
    W7 m ρ c (Proc.devRef .tc main_v58) = val_main_v66 (F := Ideal) x0 x1 x3 := by
  have e76 : W7 m ρ c (Proc.devRef .tc main_v58) = StableHlo.after hostOps1_3 (W5 m ρ c) (Proc.devRef .tc main_v58) := by
    show StableHlo.after hostOps1_4 (StableHlo.after hostOps1_3 (W5 m ρ c)) (Proc.devRef .tc main_v58) = _
    rw [StableHlo.after_of_forall_not_mem (b := Proc.devRef .tc main_v58) hostOps1_4 _ (List.forall_iff_forall_mem.mp (by
      simp only [hostOps1_4, List.Forall, StableHlo.reshape_writes, Finset.mem_singleton]
      exact StableHlo.devRef_ne_of_ne (by decide)))]
  rw [e76, take1 (W5 m ρ c) (val_main_v30 (F := Ideal) x1) (val_main_v24 (F := Ideal) x0 x3) (W5_v29 m ρ c x1 x2 h1 h2)
    ((W5_v23 m ρ c).trans (W2_v23 m ρ c x0 x3 h0 h3)) (rows_ok x0 x1 x2 x3 x4 x5 hpre), wrapped_eq1]
  rfl

/-- The normalisation coefficients, as the column the message region reads. -/
theorem W7_v59 (h1 : m ((c.tc : Thread nD τ).loc main_arg1) = x1) (h2 : m ((c.tc : Thread nD τ).loc main_arg2) = x2) :
    W7 m ρ c (Proc.devRef .tc main_v59)
      = shapeCast S700000x1 (val_main_v58 (F := Ideal) x1 x2) shapeCasts_S700000_S700000x1 := by
  refine (col_of_14 (W6 m ρ c)).trans ?_
  rw [show W6 m ρ c (Proc.devRef .tc main_v57) = val_main_v58 (F := Ideal) x1 x2 from
    (keep_13 (W5 m ρ c)).trans (W5_v57 m ρ c x1 x2 h1 h2)]

/-- The index vectors and the coefficients are still in place at the region's entry. -/
theorem W7_keep (r : Ref sig .tc) (hr : r = main_v29 ∨ r = main_v30 ∨ r = main_v57) :
    W7 m ρ c (Proc.devRef .tc r) = W5 m ρ c (Proc.devRef .tc r) :=
  keep_13_14 (W5 m ρ c) r hr

end

/-! ## The first message region, the scatter-add, and the second hop -/

section
variable [hPre : Cert.Pre_finite_inputs.Facts]

/-- The scaled messages of hop 1: entry (e, f) is the gathered feature times the edge's coefficient; the reference
    has the factors in the other order. -/
theorem W8_v60 (h0 : m ((c.tc : Thread nD τ).loc main_arg0) = x0) (h1 : m ((c.tc : Thread nD τ).loc main_arg1) = x1) (h2 : m ((c.tc : Thread nD τ).loc main_arg2) = x2) (h3 : m ((c.tc : Thread nD τ).loc main_arg3) = x3) (hpre : Cert.Pre_finite_inputs.fn (F := Ideal) x0 x1 x2 x3 x4 x5 = fun _ => 1#1) :
    W8 m ρ c (Proc.devRef .tc main_v60) = val_main_v68 (F := Ideal) x0 x1 x2 x3 := by
  refine funext fun (i : S700000x128.Idx) => ?_
  obtain ⟨e, f, rfl⟩ : ∃ (e : Fin 700000) (f : Fin 128), i = ix2 e f := ⟨i 0, i 1, eq_ix2 i⟩
  refine ((congrFun (W8_arr m ρ c 2) (ix2 e f)).trans
    (msg1_at (V7 m ρ) c (val_main_v66 (F := Ideal) x0 x1 x3) _ (W7_v58 m ρ c x0 x1 x2 x3 x4 x5 h0 h1 h2 h3 hpre)
      (W7_v59 m ρ c x1 x2 h1 h2) e f)).trans ?_
  rw [val_main_v68_apply, val_main_v67_apply, val_main_v59_apply, Cert.LibColumn.shapeCast_a_a1_apply]
  show val_main_v66 (F := Ideal) x0 x1 x3 (ix2 e f) * val_main_v58 (F := Ideal) x1 x2 (ix1 e)
    = val_main_v58 (F := Ideal) x1 x2 _ * val_main_v66 (F := Ideal) x0 x1 x3 (ix2 e f)
  rw [mul_comm]
  congr 2
  funext a; match a with | ⟨0, _⟩ => rfl

/-- A scatter-add of messages into zeros by the column indices, from ANY contents holding them: the reference's. -/
theorem scatter1_of (V : Valuation τ sig (Elt Ideal))
    (h30 : V (Proc.devRef .tc main_v30) = val_main_v31 (F := Ideal) x1)
    (h60 : V (Proc.devRef .tc main_v60) = val_main_v68 (F := Ideal) x0 x1 x2 x3) :
    StableHlo.after hostOps2 V (Proc.devRef .tc main_v63) = val_main_v71 (F := Ideal) x0 x1 x2 x3 := by
  after_results_simp
  rw [h30, h60]
  rfl
theorem keep_2 (V : Valuation τ sig (Elt Ideal)) (r : Ref sig .tc) (hr : r = main_v29 ∨ r = main_v30 ∨ r = main_v57) :
    StableHlo.after hostOps2 V (Proc.devRef .tc r) = V (Proc.devRef .tc r) := by
  rcases hr with rfl | rfl | rfl <;> after_results_simp
theorem keep_21 (V : Valuation τ sig (Elt Ideal)) (r : Ref sig .tc) (hr : r = main_v30 ∨ r = main_v57) :
    StableHlo.after hostOps2_1 V (Proc.devRef .tc r) = V (Proc.devRef .tc r) := by
  rcases hr with rfl | rfl <;> after_results_simp
theorem keep_22 (V : Valuation τ sig (Elt Ideal)) (r : Ref sig .tc) (hr : r = main_v30 ∨ r = main_v64) :
    StableHlo.after hostOps2_2 V (Proc.devRef .tc r) = V (Proc.devRef .tc r) := by
  rcases hr with rfl | rfl <;> after_results_simp
theorem col_of_22 (V : Valuation τ sig (Elt Ideal)) :
    StableHlo.after hostOps2_2 V (Proc.devRef .tc main_v65)
      = shapeCast S700000x1 (V (Proc.devRef .tc main_v57)) shapeCasts_S700000_S700000x1 := by
  after_results_simp
  rfl

/-- The index vectors and coefficients across the first message region and the stretches after it. -/
theorem W8_keep (r : Ref sig .tc) (hr : r = main_v29 ∨ r = main_v30 ∨ r = main_v57) (h1 : m ((c.tc : Thread nD τ).loc main_arg1) = x1) (h2 : m ((c.tc : Thread nD τ).loc main_arg2) = x2) :
    W8 m ρ c (Proc.devRef .tc r) = W5 m ρ c (Proc.devRef .tc r) := by
  have e : W8 m ρ c (Proc.devRef .tc r) = W7 m ρ c (Proc.devRef .tc r) := by
    rcases hr with rfl | rfl | rfl <;> exact W8_of_ne m ρ c _ (by decide)
  exact e.trans (W7_keep m ρ c r hr)

/-- The once-propagated features. -/
theorem W9_v63 (h0 : m ((c.tc : Thread nD τ).loc main_arg0) = x0) (h1 : m ((c.tc : Thread nD τ).loc main_arg1) = x1) (h2 : m ((c.tc : Thread nD τ).loc main_arg2) = x2) (h3 : m ((c.tc : Thread nD τ).loc main_arg3) = x3) (hpre : Cert.Pre_finite_inputs.fn (F := Ideal) x0 x1 x2 x3 x4 x5 = fun _ => 1#1) :
    W9 m ρ c (Proc.devRef .tc main_v63) = val_main_v71 (F := Ideal) x0 x1 x2 x3 :=
  scatter1_of x0 x1 x2 x3 (W8 m ρ c) ((W8_keep m ρ c x1 x2 main_v30 (.inr (.inl rfl)) h1 h2).trans (W5_v30 m ρ c x1 x2 h1 h2))
    (W8_v60 m ρ c x0 x1 x2 x3 x4 x5 h0 h1 h2 h3 hpre)
theorem W9_v29 (h1 : m ((c.tc : Thread nD τ).loc main_arg1) = x1) (h2 : m ((c.tc : Thread nD τ).loc main_arg2) = x2) : W9 m ρ c (Proc.devRef .tc main_v29) = val_main_v30 (F := Ideal) x1 :=
  (keep_2 (W8 m ρ c) main_v29 (.inl rfl)).trans ((W8_keep m ρ c x1 x2 main_v29 (.inl rfl) h1 h2).trans (W5_v29 m ρ c x1 x2 h1 h2))
theorem W9_v30 (h1 : m ((c.tc : Thread nD τ).loc main_arg1) = x1) (h2 : m ((c.tc : Thread nD τ).loc main_arg2) = x2) : W9 m ρ c (Proc.devRef .tc main_v30) = val_main_v31 (F := Ideal) x1 :=
  (keep_2 (W8 m ρ c) main_v30 (.inr (.inl rfl))).trans ((W8_keep m ρ c x1 x2 main_v30 (.inr (.inl rfl)) h1 h2).trans (W5_v30 m ρ c x1 x2 h1 h2))
theorem W9_v57 (h1 : m ((c.tc : Thread nD τ).loc main_arg1) = x1) (h2 : m ((c.tc : Thread nD τ).loc main_arg2) = x2) : W9 m ρ c (Proc.devRef .tc main_v57) = val_main_v58 (F := Ideal) x1 x2 :=
  (keep_2 (W8 m ρ c) main_v57 (.inr (.inr rfl))).trans ((W8_keep m ρ c x1 x2 main_v57 (.inr (.inr rfl)) h1 h2).trans (W5_v57 m ρ c x1 x2 h1 h2))

/-- The gathered features of hop 2, and the coefficient column again, at the second message region's entry. -/
theorem W11_v64 (h0 : m ((c.tc : Thread nD τ).loc main_arg0) = x0) (h1 : m ((c.tc : Thread nD τ).loc main_arg1) = x1) (h2 : m ((c.tc : Thread nD τ).loc main_arg2) = x2) (h3 : m ((c.tc : Thread nD τ).loc main_arg3) = x3) (hpre : Cert.Pre_finite_inputs.fn (F := Ideal) x0 x1 x2 x3 x4 x5 = fun _ => 1#1) :
    W11 m ρ c (Proc.devRef .tc main_v64) = val_main_v79 (F := Ideal) x0 x1 x2 x3 := by
  refine (keep_22 (W10 m ρ c) main_v64 (.inr rfl)).trans ?_
  show StableHlo.after hostOps2_1 (W9 m ρ c) (Proc.devRef .tc main_v64) = _
  rw [take2 (W9 m ρ c) (val_main_v30 (F := Ideal) x1) (val_main_v71 (F := Ideal) x0 x1 x2 x3) (W9_v29 m ρ c x1 x2 h1 h2)
    (W9_v63 m ρ c x0 x1 x2 x3 x4 x5 h0 h1 h2 h3 hpre) (rows_ok x0 x1 x2 x3 x4 x5 hpre), wrapped_eq2]
  rfl
theorem W11_v65 (h1 : m ((c.tc : Thread nD τ).loc main_arg1) = x1) (h2 : m ((c.tc : Thread nD τ).loc main_arg2) = x2) :
    W11 m ρ c (Proc.devRef .tc main_v65)
      = shapeCast S700000x1 (val_main_v58 (F := Ideal) x1 x2) shapeCasts_S700000_S700000x1 := by
  refine (col_of_22 (W10 m ρ c)).trans ?_
  rw [show W10 m ρ c (Proc.devRef .tc main_v57) = val_main_v58 (F := Ideal) x1 x2 from
    (keep_21 (W9 m ρ c) main_v57 (.inr rfl)).trans (W9_v57 m ρ c x1 x2 h1 h2)]
theorem W11_v30 (h1 : m ((c.tc : Thread nD τ).loc main_arg1) = x1) (h2 : m ((c.tc : Thread nD τ).loc main_arg2) = x2) : W11 m ρ c (Proc.devRef .tc main_v30) = val_main_v31 (F := Ideal) x1 :=
  (keep_22 (W10 m ρ c) main_v30 (.inl rfl)).trans ((keep_21 (W9 m ρ c) main_v30 (.inl rfl)).trans (W9_v30 m ρ c x1 x2 h1 h2))

/-- The scaled messages of hop 2. -/
theorem W12_v66 (h0 : m ((c.tc : Thread nD τ).loc main_arg0) = x0) (h1 : m ((c.tc : Thread nD τ).loc main_arg1) = x1) (h2 : m ((c.tc : Thread nD τ).loc main_arg2) = x2) (h3 : m ((c.tc : Thread nD τ).loc main_arg3) = x3) (hpre : Cert.Pre_finite_inputs.fn (F := Ideal) x0 x1 x2 x3 x4 x5 = fun _ => 1#1) :
    W12 m ρ c (Proc.devRef .tc main_v66) = val_main_v81 (F := Ideal) x0 x1 x2 x3 := by
  refine funext fun (i : S700000x128.Idx) => ?_
  obtain ⟨e, f, rfl⟩ : ∃ (e : Fin 700000) (f : Fin 128), i = ix2 e f := ⟨i 0, i 1, eq_ix2 i⟩
  refine ((congrFun (W12_arr m ρ c 2) (ix2 e f)).trans
    (msg2_at (V11 m ρ) c (val_main_v79 (F := Ideal) x0 x1 x2 x3) _ (W11_v64 m ρ c x0 x1 x2 x3 x4 x5 h0 h1 h2 h3 hpre)
      (W11_v65 m ρ c x1 x2 h1 h2) e f)).trans ?_
  rw [val_main_v81_apply, val_main_v80_apply, val_main_v72_apply, Cert.LibColumn.shapeCast_a_a1_apply]
  show val_main_v79 (F := Ideal) x0 x1 x2 x3 (ix2 e f) * val_main_v58 (F := Ideal) x1 x2 (ix1 e)
    = val_main_v58 (F := Ideal) x1 x2 _ * val_main_v79 (F := Ideal) x0 x1 x2 x3 (ix2 e f)
  rw [mul_comm]
  congr 2
  funext a; match a with | ⟨0, _⟩ => rfl

/-! ## The last stretch and the last region -/

/-- The twice-propagated features, the transposed weight and the bias row, from ANY contents holding their inputs. -/
theorem last_of (V : Valuation τ sig (Elt Ideal))
    (h30 : V (Proc.devRef .tc main_v30) = val_main_v31 (F := Ideal) x1)
    (h66 : V (Proc.devRef .tc main_v66) = val_main_v81 (F := Ideal) x0 x1 x2 x3)
    (h4 : V (Proc.devRef .tc main_arg4) = x4) (h5 : V (Proc.devRef .tc main_arg5) = x5) :
    StableHlo.after hostOps3 V (Proc.devRef .tc main_v69) = val_main_v84 (F := Ideal) x0 x1 x2 x3
    ∧ StableHlo.after hostOps3 V (Proc.devRef .tc main_v70) = val_main_v85 (F := Ideal) x4
    ∧ StableHlo.after hostOps3 V (Proc.devRef .tc main_v71) = shapeCast S1x64 x5 shapeCasts_S64_S1x64 := by
  refine ⟨?_, ?_, ?_⟩
  · after_results_simp; rw [h30, h66]; rfl
  · after_results_simp; rw [h4]; rfl
  · after_results_simp; rw [h5]; rfl

/-- The weight and the bias are as launched when the last stretch reads them. -/
theorem W12_arg4 : W12 m ρ c (Proc.devRef .tc main_arg4) = m ((c.tc : Thread nD τ).loc main_arg4) := by
  have e13 : W13 m ρ c (Proc.devRef .tc main_arg4) = W12 m ρ c (Proc.devRef .tc main_arg4) := by
    show StableHlo.after hostOps3 (W12 m ρ c) _ = _
    generalize W12 m ρ c = V
    after_results_simp
  exact (e13.symm.trans (W14_of_ne m ρ c main_arg4 (by decide)).symm).trans (W14_main_arg4 m ρ c)
theorem W12_arg5 : W12 m ρ c (Proc.devRef .tc main_arg5) = m ((c.tc : Thread nD τ).loc main_arg5) := by
  have e13 : W13 m ρ c (Proc.devRef .tc main_arg5) = W12 m ρ c (Proc.devRef .tc main_arg5) := by
    show StableHlo.after hostOps3 (W12 m ρ c) _ = _
    generalize W12 m ρ c = V
    after_results_simp
  exact (e13.symm.trans (W14_of_ne m ρ c main_arg5 (by decide)).symm).trans (W14_main_arg5 m ρ c)

/-- THE KERNEL'S VALUE: the result buffer at the last boundary holds the reference's last stage of the launch
    contents, under the precondition on them. -/
theorem W14_v72 (h0 : m ((c.tc : Thread nD τ).loc main_arg0) = x0) (h1 : m ((c.tc : Thread nD τ).loc main_arg1) = x1) (h2 : m ((c.tc : Thread nD τ).loc main_arg2) = x2) (h3 : m ((c.tc : Thread nD τ).loc main_arg3) = x3) (h4 : m ((c.tc : Thread nD τ).loc main_arg4) = x4) (h5 : m ((c.tc : Thread nD τ).loc main_arg5) = x5) (hpre : Cert.Pre_finite_inputs.fn (F := Ideal) x0 x1 x2 x3 x4 x5 = fun _ => 1#1) :
    W14 m ρ c (Proc.devRef .tc main_v72) = val_main_v90 (F := Ideal) x0 x1 x2 x3 x4 x5 := by
  have hl := last_of x0 x1 x2 x3 x4 x5 (W12 m ρ c)
    ((W12_of_ne m ρ c main_v30 (by decide)).trans (W11_v30 m ρ c x1 x2 h1 h2))
    (W12_v66 m ρ c x0 x1 x2 x3 x4 x5 h0 h1 h2 h3 hpre) ((W12_arg4 m ρ c).trans h4) ((W12_arg5 m ρ c).trans h5)
  refine funext fun (i : S100000x64.Idx) => ?_
  obtain ⟨r, j, rfl⟩ : ∃ (r : Fin 100000) (j : Fin 64), i = ix2 r j := ⟨i 0, i 1, eq_ix2 i⟩
  refine ((congrFun (W14_arr m ρ c 3) (ix2 r j)).trans
    (final_at (V13 m ρ) c (val_main_v84 (F := Ideal) x0 x1 x2 x3) (val_main_v85 (F := Ideal) x4) _ hl.1 hl.2.1 hl.2.2 r j)).trans ?_
  rw [Cert.ReferenceIdeal.RefVal.ref_final_at x0 x1 x2 x3 x4 x5 r j]
  exact congrArg (fun b => Cert.Spec.logSoftmaxRow (Cert.Spec.logitsRow _ _ b) j)
    (funext fun j' => shapeCast_a_1a_apply x5 _ 0 j')

end

/-- The kernel's result, for the launch memory itself. -/
theorem kernel_value [hPre : Cert.Pre_finite_inputs.Facts]
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    W14 m ρ c (Proc.devRef .tc main_v72)
      = val_main_v90 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) :=
  W14_v72 m ρ c _ _ _ _ _ _ rfl rfl rfl rfl rfl rfl hpre

end Cert.KernelIdeal.Val

end
-- ==== Proof.RefOpsParts.lean ====
import proofs.«407682_j28991029248693_1_alg».proof.Proof.RefRun

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- Operations 0 to 30 of the list. -/
abbrev ops_1 : List (HloOp τ sig (Elt F)) :=
  [ unary main_arg2 main_v0 (Host.absf : (⟨S600000, .f32⟩ : BufTy).Contents (Elt F) → (⟨S600000, .f32⟩ : BufTy).Contents (Elt F)),
    nullary main_cst (constant S_ .f32 0x00000000#32),
    unary main_cst main_v1 (broadcastInDim S600000 ![] bcast_S_S600000 : (⟨S_, .f32⟩ : BufTy).Contents (Elt F) → (⟨S600000, .f32⟩ : BufTy).Contents (Elt F)),
    binary main_v0 main_v1 main_v2 (cmpf .ogt : (⟨S600000, .f32⟩ : BufTy).Contents (Elt F) → (⟨S600000, .f32⟩ : BufTy).Contents (Elt F) → (⟨S600000, .i1⟩ : BufTy).Contents (Elt F)),
    unary main_v2 main_v3 (uitofp .f32 : (⟨S600000, .i1⟩ : BufTy).Contents (Elt F) → (⟨S600000, .f32⟩ : BufTy).Contents (Elt F)),
    unary main_arg2 main_v4 (Host.negf : (⟨S600000, .f32⟩ : BufTy).Contents (Elt F) → (⟨S600000, .f32⟩ : BufTy).Contents (Elt F)),
    unary main_v4 main_v5 (Host.exp : (⟨S600000, .f32⟩ : BufTy).Contents (Elt F) → (⟨S600000, .f32⟩ : BufTy).Contents (Elt F)),
    nullary main_cst_0 (constant S_ .f32 0x3F800000#32),
    unary main_cst_0 main_v6 (broadcastInDim S600000 ![] bcast_S_S600000 : (⟨S_, .f32⟩ : BufTy).Contents (Elt F) → (⟨S600000, .f32⟩ : BufTy).Contents (Elt F)),
    binary main_v6 main_v5 main_v7 (addf : (⟨S600000, .f32⟩ : BufTy).Contents (Elt F) → (⟨S600000, .f32⟩ : BufTy).Contents (Elt F) → (⟨S600000, .f32⟩ : BufTy).Contents (Elt F)),
    nullary main_cst_1 (constant S_ .f32 0x3F800000#32),
    unary main_cst_1 main_v8 (broadcastInDim S600000 ![] bcast_S_S600000 : (⟨S_, .f32⟩ : BufTy).Contents (Elt F) → (⟨S600000, .f32⟩ : BufTy).Contents (Elt F)),
    binary main_v8 main_v7 main_v9 (Host.divf : (⟨S600000, .f32⟩ : BufTy).Contents (Elt F) → (⟨S600000, .f32⟩ : BufTy).Contents (Elt F) → (⟨S600000, .f32⟩ : BufTy).Contents (Elt F)),
    binary main_v9 main_v3 main_v10 (mulf : (⟨S600000, .f32⟩ : BufTy).Contents (Elt F) → (⟨S600000, .f32⟩ : BufTy).Contents (Elt F) → (⟨S600000, .f32⟩ : BufTy).Contents (Elt F)),
    unary main_arg3 main_v11 (Host.absf : (⟨S128, .f32⟩ : BufTy).Contents (Elt F) → (⟨S128, .f32⟩ : BufTy).Contents (Elt F)),
    nullary main_cst_2 (constant S_ .f32 0x00000000#32),
    unary main_cst_2 main_v12 (broadcastInDim S128 ![] bcast_S_S128 : (⟨S_, .f32⟩ : BufTy).Contents (Elt F) → (⟨S128, .f32⟩ : BufTy).Contents (Elt F)),
    binary main_v11 main_v12 main_v13 (cmpf .ogt : (⟨S128, .f32⟩ : BufTy).Contents (Elt F) → (⟨S128, .f32⟩ : BufTy).Contents (Elt F) → (⟨S128, .i1⟩ : BufTy).Contents (Elt F)),
    unary main_v13 main_v14 (uitofp .f32 : (⟨S128, .i1⟩ : BufTy).Contents (Elt F) → (⟨S128, .f32⟩ : BufTy).Contents (Elt F)),
    unary main_arg3 main_v15 (Host.negf : (⟨S128, .f32⟩ : BufTy).Contents (Elt F) → (⟨S128, .f32⟩ : BufTy).Contents (Elt F)),
    unary main_v15 main_v16 (Host.exp : (⟨S128, .f32⟩ : BufTy).Contents (Elt F) → (⟨S128, .f32⟩ : BufTy).Contents (Elt F)),
    nullary main_cst_3 (constant S_ .f32 0x3F800000#32),
    unary main_cst_3 main_v17 (broadcastInDim S128 ![] bcast_S_S128 : (⟨S_, .f32⟩ : BufTy).Contents (Elt F) → (⟨S128, .f32⟩ : BufTy).Contents (Elt F)),
    binary main_v17 main_v16 main_v18 (addf : (⟨S128, .f32⟩ : BufTy).Contents (Elt F) → (⟨S128, .f32⟩ : BufTy).Contents (Elt F) → (⟨S128, .f32⟩ : BufTy).Contents (Elt F)),
    nullary main_cst_4 (constant S_ .f32 0x3F800000#32),
    unary main_cst_4 main_v19 (broadcastInDim S128 ![] bcast_S_S128 : (⟨S_, .f32⟩ : BufTy).Contents (Elt F) → (⟨S128, .f32⟩ : BufTy).Contents (Elt F)),
    binary main_v19 main_v18 main_v20 (Host.divf : (⟨S128, .f32⟩ : BufTy).Contents (Elt F) → (⟨S128, .f32⟩ : BufTy).Contents (Elt F) → (⟨S128, .f32⟩ : BufTy).Contents (Elt F)),
    binary main_v20 main_v14 main_v21 (mulf : (⟨S128, .f32⟩ : BufTy).Contents (Elt F) → (⟨S128, .f32⟩ : BufTy).Contents (Elt F) → (⟨S128, .f32⟩ : BufTy).Contents (Elt F)),
    unary main_v21 main_v22 (broadcastInDim S1x128 ![1] bcast_S128_S1x128_1 : (⟨S128, .f32⟩ : BufTy).Contents (Elt F) → (⟨S1x128, .f32⟩ : BufTy).Contents (Elt F)),
    unary main_v22 main_v23 (broadcastInDim S100000x128 ![0, 1] bcast_S1x128_S100000x128_0_1 : (⟨S1x128, .f32⟩ : BufTy).Contents (Elt F) → (⟨S100000x128, .f32⟩ : BufTy).Contents (Elt F)),
    binary main_arg0 main_v23 main_v24 (mulf : (⟨S100000x128, .f32⟩ : BufTy).Contents (Elt F) → (⟨S100000x128, .f32⟩ : BufTy).Contents (Elt F) → (⟨S100000x128, .f32⟩ : BufTy).Contents (Elt F)) ]

/-- Operations 31 to 52 of the list. -/
abbrev ops_2 : List (HloOp τ sig (Elt F)) :=
  [ unary main_arg1 main_v25 ((extractStridedSlice S1x600000 ![0, 0] · slices_S2x600000_S1x600000_0_0) : (⟨S2x600000, .i32⟩ : BufTy).Contents (Elt F) → (⟨S1x600000, .i32⟩ : BufTy).Contents (Elt F)),
    reshape main_v25 main_v26 rfl shapeCasts_S1x600000_S600000,
    unary main_arg1 main_v27 ((extractStridedSlice S1x600000 ![1, 0] · slices_S2x600000_S1x600000_1_0) : (⟨S2x600000, .i32⟩ : BufTy).Contents (Elt F) → (⟨S1x600000, .i32⟩ : BufTy).Contents (Elt F)),
    reshape main_v27 main_v28 rfl shapeCasts_S1x600000_S600000,
    nullary main_v29 (iotaInDim S100000 32 0),
    binary main_v26 main_v29 main_v30 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    binary main_v28 main_v29 main_v31 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    nullary main_cst_5 (constant S_ .f32 0x3F800000#32),
    unary main_cst_5 main_v32 (broadcastInDim S100000 ![] bcast_S_S100000 : (⟨S_, .f32⟩ : BufTy).Contents (Elt F) → (⟨S100000, .f32⟩ : BufTy).Contents (Elt F)),
    binary main_v10 main_v32 main_v33 ((fun a b => concatenate S700000 0 [⟨S600000, a⟩, ⟨S100000, b⟩] concatenates_S600000_S100000_S700000_d0) : (⟨S600000, .f32⟩ : BufTy).Contents (Elt F) → (⟨S100000, .f32⟩ : BufTy).Contents (Elt F) → (⟨S700000, .f32⟩ : BufTy).Contents (Elt F)),
    nullary main_cst_6 (constant S_ .f32 0x00000000#32),
    unary main_cst_6 main_v34 (broadcastInDim S100000 ![] bcast_S_S100000 : (⟨S_, .f32⟩ : BufTy).Contents (Elt F) → (⟨S100000, .f32⟩ : BufTy).Contents (Elt F)),
    unary main_v31 main_v35 (broadcastInDim S700000x1 ![0] bcast_S700000_S700000x1_0 : (⟨S700000, .i32⟩ : BufTy).Contents (Elt F) → (⟨S700000x1, .i32⟩ : BufTy).Contents (Elt F)),
    ternary main_v34 main_v35 main_v33 main_v36 ((fun x i u => Host.scatterAdd scatter_S100000_S700000x1_S700000_n_0_0_1 x i u) : (⟨S100000, .f32⟩ : BufTy).Contents (Elt F) → (⟨S700000x1, .i32⟩ : BufTy).Contents (Elt F) → (⟨S700000, .f32⟩ : BufTy).Contents (Elt F) → (⟨S100000, .f32⟩ : BufTy).Contents (Elt F)),
    nullary main_cst_7 (constant S_ .f32 0x00000000#32),
    unary main_cst_7 main_v37 (broadcastInDim S100000 ![] bcast_S_S100000 : (⟨S_, .f32⟩ : BufTy).Contents (Elt F) → (⟨S100000, .f32⟩ : BufTy).Contents (Elt F)),
    binary main_v36 main_v37 main_v38 (cmpf .ogt : (⟨S100000, .f32⟩ : BufTy).Contents (Elt F) → (⟨S100000, .f32⟩ : BufTy).Contents (Elt F) → (⟨S100000, .i1⟩ : BufTy).Contents (Elt F)),
    nullary main_cst_8 (constant S_ .f32 0x0DA24260#32),
    unary main_cst_8 main_v39 (broadcastInDim S100000 ![] bcast_S_S100000 : (⟨S_, .f32⟩ : BufTy).Contents (Elt F) → (⟨S100000, .f32⟩ : BufTy).Contents (Elt F)),
    binary main_v36 main_v39 main_v40 (maximumf : (⟨S100000, .f32⟩ : BufTy).Contents (Elt F) → (⟨S100000, .f32⟩ : BufTy).Contents (Elt F) → (⟨S100000, .f32⟩ : BufTy).Contents (Elt F)),
    unary main_v40 main_v41 (Host.rsqrt : (⟨S100000, .f32⟩ : BufTy).Contents (Elt F) → (⟨S100000, .f32⟩ : BufTy).Contents (Elt F)),
    nullary main_cst_9 (constant S_ .f32 0x00000000#32) ]

/-- Operations 53 to 55 of the list. -/
abbrev ops_3 : List (HloOp τ sig (Elt F)) :=
  [ TRef.unary (TRef.of (T := ⟨S_, .f32⟩) main_cst_9) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v38) (TRef.of (T := ⟨S100000, .f32⟩) main_v41) (TRef.of (T := ⟨S100000, .f32⟩) main_call0_v1) (TRef.of (T := ⟨S100000, .f32⟩) main_v42) select ]

/-- Operations 56 to 76 of the list. -/
abbrev ops_4 : List (HloOp τ sig (Elt F)) :=
  [ nullary main_c (constantI S_ 32 0#32),
    unary main_c main_v43 (broadcastInDim S700000 ![] bcast_S_S700000 : (⟨S_, .i32⟩ : BufTy).Contents (Elt F) → (⟨S700000, .i32⟩ : BufTy).Contents (Elt F)),
    binary main_v30 main_v43 main_v44 (cmpi .slt : (⟨S700000, .i32⟩ : BufTy).Contents (Elt F) → (⟨S700000, .i32⟩ : BufTy).Contents (Elt F) → (⟨S700000, .i1⟩ : BufTy).Contents (Elt F)),
    nullary main_c_10 (constantI S_ 32 100000#32),
    unary main_c_10 main_v45 (broadcastInDim S700000 ![] bcast_S_S700000 : (⟨S_, .i32⟩ : BufTy).Contents (Elt F) → (⟨S700000, .i32⟩ : BufTy).Contents (Elt F)),
    binary main_v30 main_v45 main_v46 (addi : (⟨S700000, .i32⟩ : BufTy).Contents (Elt F) → (⟨S700000, .i32⟩ : BufTy).Contents (Elt F) → (⟨S700000, .i32⟩ : BufTy).Contents (Elt F)),
    ternary main_v44 main_v46 main_v30 main_v47 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v47 main_v48 (broadcastInDim S700000x1 ![0] bcast_S700000_S700000x1_0 : (⟨S700000, .i32⟩ : BufTy).Contents (Elt F) → (⟨S700000x1, .i32⟩ : BufTy).Contents (Elt F)),
    binary main_v42 main_v48 main_v49 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    binary main_v49 main_v33 main_v50 (mulf : (⟨S700000, .f32⟩ : BufTy).Contents (Elt F) → (⟨S700000, .f32⟩ : BufTy).Contents (Elt F) → (⟨S700000, .f32⟩ : BufTy).Contents (Elt F)),
    nullary main_c_11 (constantI S_ 32 0#32),
    unary main_c_11 main_v51 (broadcastInDim S700000 ![] bcast_S_S700000 : (⟨S_, .i32⟩ : BufTy).Contents (Elt F) → (⟨S700000, .i32⟩ : BufTy).Contents (Elt F)),
    binary main_v31 main_v51 main_v52 (cmpi .slt : (⟨S700000, .i32⟩ : BufTy).Contents (Elt F) → (⟨S700000, .i32⟩ : BufTy).Contents (Elt F) → (⟨S700000, .i1⟩ : BufTy).Contents (Elt F)),
    nullary main_c_12 (constantI S_ 32 100000#32),
    unary main_c_12 main_v53 (broadcastInDim S700000 ![] bcast_S_S700000 : (⟨S_, .i32⟩ : BufTy).Contents (Elt F) → (⟨S700000, .i32⟩ : BufTy).Contents (Elt F)),
    binary main_v31 main_v53 main_v54 (addi : (⟨S700000, .i32⟩ : BufTy).Contents (Elt F) → (⟨S700000, .i32⟩ : BufTy).Contents (Elt F) → (⟨S700000, .i32⟩ : BufTy).Contents (Elt F)),
    ternary main_v52 main_v54 main_v31 main_v55 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v55 main_v56 (broadcastInDim S700000x1 ![0] bcast_S700000_S700000x1_0 : (⟨S700000, .i32⟩ : BufTy).Contents (Elt F) → (⟨S700000x1, .i32⟩ : BufTy).Contents (Elt F)),
    binary main_v42 main_v56 main_v57 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    binary main_v50 main_v57 main_v58 (mulf : (⟨S700000, .f32⟩ : BufTy).Contents (Elt F) → (⟨S700000, .f32⟩ : BufTy).Contents (Elt F) → (⟨S700000, .f32⟩ : BufTy).Contents (Elt F)),
    unary main_v58 main_v59 (broadcastInDim S700000x1 ![0] bcast_S700000_S700000x1_0 : (⟨S700000, .f32⟩ : BufTy).Contents (Elt F) → (⟨S700000x1, .f32⟩ : BufTy).Contents (Elt F)) ]

/-- Operations 77 to 91 of the list. -/
abbrev ops_5 : List (HloOp τ sig (Elt F)) :=
  [ nullary main_c_13 (constantI S_ 32 0#32),
    unary main_c_13 main_v60 (broadcastInDim S700000 ![] bcast_S_S700000 : (⟨S_, .i32⟩ : BufTy).Contents (Elt F) → (⟨S700000, .i32⟩ : BufTy).Contents (Elt F)),
    binary main_v30 main_v60 main_v61 (cmpi .slt : (⟨S700000, .i32⟩ : BufTy).Contents (Elt F) → (⟨S700000, .i32⟩ : BufTy).Contents (Elt F) → (⟨S700000, .i1⟩ : BufTy).Contents (Elt F)),
    nullary main_c_14 (constantI S_ 32 100000#32),
    unary main_c_14 main_v62 (broadcastInDim S700000 ![] bcast_S_S700000 : (⟨S_, .i32⟩ : BufTy).Contents (Elt F) → (⟨S700000, .i32⟩ : BufTy).Contents (Elt F)),
    binary main_v30 main_v62 main_v63 (addi : (⟨S700000, .i32⟩ : BufTy).Contents (Elt F) → (⟨S700000, .i32⟩ : BufTy).Contents (Elt F) → (⟨S700000, .i32⟩ : BufTy).Contents (Elt F)),
    ternary main_v61 main_v63 main_v30 main_v64 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v64 main_v65 (broadcastInDim S700000x1 ![0] bcast_S700000_S700000x1_0 : (⟨S700000, .i32⟩ : BufTy).Contents (Elt F) → (⟨S700000x1, .i32⟩ : BufTy).Contents (Elt F)),
    binary main_v24 main_v65 main_v66 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v59 main_v67 (broadcastInDim S700000x128 ![0, 1] bcast_S700000x1_S700000x128_0_1 : (⟨S700000x1, .f32⟩ : BufTy).Contents (Elt F) → (⟨S700000x128, .f32⟩ : BufTy).Contents (Elt F)),
    binary main_v67 main_v66 main_v68 (mulf : (⟨S700000x128, .f32⟩ : BufTy).Contents (Elt F) → (⟨S700000x128, .f32⟩ : BufTy).Contents (Elt F) → (⟨S700000x128, .f32⟩ : BufTy).Contents (Elt F)),
    nullary main_cst_15 (constant S_ .f32 0x00000000#32),
    unary main_cst_15 main_v69 (broadcastInDim S100000x128 ![] bcast_S_S100000x128 : (⟨S_, .f32⟩ : BufTy).Contents (Elt F) → (⟨S100000x128, .f32⟩ : BufTy).Contents (Elt F)),
    unary main_v31 main_v70 (broadcastInDim S700000x1 ![0] bcast_S700000_S700000x1_0 : (⟨S700000, .i32⟩ : BufTy).Contents (Elt F) → (⟨S700000x1, .i32⟩ : BufTy).Contents (Elt F)),
    ternary main_v69 main_v70 main_v68 main_v71 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)) ]

/-- Operations 92 to 107 of the list. -/
abbrev ops_6 : List (HloOp τ sig (Elt F)) :=
  [ unary main_v58 main_v72 (broadcastInDim S700000x1 ![0] bcast_S700000_S700000x1_0 : (⟨S700000, .f32⟩ : BufTy).Contents (Elt F) → (⟨S700000x1, .f32⟩ : BufTy).Contents (Elt F)),
    nullary main_c_16 (constantI S_ 32 0#32),
    unary main_c_16 main_v73 (broadcastInDim S700000 ![] bcast_S_S700000 : (⟨S_, .i32⟩ : BufTy).Contents (Elt F) → (⟨S700000, .i32⟩ : BufTy).Contents (Elt F)),
    binary main_v30 main_v73 main_v74 (cmpi .slt : (⟨S700000, .i32⟩ : BufTy).Contents (Elt F) → (⟨S700000, .i32⟩ : BufTy).Contents (Elt F) → (⟨S700000, .i1⟩ : BufTy).Contents (Elt F)),
    nullary main_c_17 (constantI S_ 32 100000#32),
    unary main_c_17 main_v75 (broadcastInDim S700000 ![] bcast_S_S700000 : (⟨S_, .i32⟩ : BufTy).Contents (Elt F) → (⟨S700000, .i32⟩ : BufTy).Contents (Elt F)),
    binary main_v30 main_v75 main_v76 (addi : (⟨S700000, .i32⟩ : BufTy).Contents (Elt F) → (⟨S700000, .i32⟩ : BufTy).Contents (Elt F) → (⟨S700000, .i32⟩ : BufTy).Contents (Elt F)),
    ternary main_v74 main_v76 main_v30 main_v77 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v77 main_v78 (broadcastInDim S700000x1 ![0] bcast_S700000_S700000x1_0 : (⟨S700000, .i32⟩ : BufTy).Contents (Elt F) → (⟨S700000x1, .i32⟩ : BufTy).Contents (Elt F)),
    binary main_v71 main_v78 main_v79 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v72 main_v80 (broadcastInDim S700000x128 ![0, 1] bcast_S700000x1_S700000x128_0_1 : (⟨S700000x1, .f32⟩ : BufTy).Contents (Elt F) → (⟨S700000x128, .f32⟩ : BufTy).Contents (Elt F)),
    binary main_v80 main_v79 main_v81 (mulf : (⟨S700000x128, .f32⟩ : BufTy).Contents (Elt F) → (⟨S700000x128, .f32⟩ : BufTy).Contents (Elt F) → (⟨S700000x128, .f32⟩ : BufTy).Contents (Elt F)),
    nullary main_cst_18 (constant S_ .f32 0x00000000#32),
    unary main_cst_18 main_v82 (broadcastInDim S100000x128 ![] bcast_S_S100000x128 : (⟨S_, .f32⟩ : BufTy).Contents (Elt F) → (⟨S100000x128, .f32⟩ : BufTy).Contents (Elt F)),
    unary main_v31 main_v83 (broadcastInDim S700000x1 ![0] bcast_S700000_S700000x1_0 : (⟨S700000, .i32⟩ : BufTy).Contents (Elt F) → (⟨S700000x1, .i32⟩ : BufTy).Contents (Elt F)),
    ternary main_v82 main_v83 main_v81 main_v84 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)) ]

/-- Operations 108 to 112 of the list. -/
abbrev ops_7 : List (HloOp τ sig (Elt F)) :=
  [ unary main_arg4 main_v85 ((transpose S128x64 [1, 0] · transposes_S64x128_S128x64_1_0) : (⟨S64x128, .f32⟩ : BufTy).Contents (Elt F) → (⟨S128x64, .f32⟩ : BufTy).Contents (Elt F)),
    binary main_v84 main_v85 main_v86 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg5 main_v87 (broadcastInDim S1x64 ![1] bcast_S64_S1x64_1 : (⟨S64, .f32⟩ : BufTy).Contents (Elt F) → (⟨S1x64, .f32⟩ : BufTy).Contents (Elt F)),
    unary main_v87 main_v88 (broadcastInDim S100000x64 ![0, 1] bcast_S1x64_S100000x64_0_1 : (⟨S1x64, .f32⟩ : BufTy).Contents (Elt F) → (⟨S100000x64, .f32⟩ : BufTy).Contents (Elt F)),
    binary main_v86 main_v88 main_v89 (addf : (⟨S100000x64, .f32⟩ : BufTy).Contents (Elt F) → (⟨S100000x64, .f32⟩ : BufTy).Contents (Elt F) → (⟨S100000x64, .f32⟩ : BufTy).Contents (Elt F)) ]

/-- Operations 113 to 127 of the list. -/
abbrev ops_8 : List (HloOp τ sig (Elt F)) :=
  [ TRef.nullary (TRef.of (T := ⟨S_, .f32⟩) main_call1_cst) (constant S_ .f32 0xFF800000#32),
    TRef.binary (TRef.of (T := ⟨S100000x64, .f32⟩) main_v89) (TRef.of (T := ⟨S_, .f32⟩) main_call1_cst) (TRef.of (T := ⟨S100000, .f32⟩) main_call1_v0) (fun x v => Host.reduce FloatOps.maximumf x v reducesTo_S100000x64_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x64, .f32⟩) main_call1_v4) (broadcastInDim S100000x64 ![0, 1] bcast_S100000x1_S100000x64_0_1),
    TRef.binary (TRef.of (T := ⟨S100000x64, .f32⟩) main_v89) (TRef.of (T := ⟨S100000x64, .f32⟩) main_call1_v4) (TRef.of (T := ⟨S100000x64, .f32⟩) main_call1_v5) subf,
    TRef.unary (TRef.of (T := ⟨S100000x64, .f32⟩) main_call1_v5) (TRef.of (T := ⟨S100000x64, .f32⟩) main_call1_v6) Host.exp,
    TRef.nullary (TRef.of (T := ⟨S_, .f32⟩) main_call1_cst_1) (constant S_ .f32 0x00000000#32),
    TRef.binary (TRef.of (T := ⟨S100000x64, .f32⟩) main_call1_v6) (TRef.of (T := ⟨S_, .f32⟩) main_call1_cst_1) (TRef.of (T := ⟨S100000, .f32⟩) main_call1_v7) (fun x v => Host.reduceAdd x v reducesTo_S100000x64_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x64, .f32⟩) main_call1_v10) (broadcastInDim S100000x64 ![0, 1] bcast_S100000x1_S100000x64_0_1),
    TRef.binary (TRef.of (T := ⟨S100000x64, .f32⟩) main_call1_v5) (TRef.of (T := ⟨S100000x64, .f32⟩) main_call1_v10) (TRef.of (T := ⟨S100000x64, .f32⟩) main_v90) subf ]

set_option maxRecDepth 8192 in
/-- The pieces, appended in order, are the whole list. -/
theorem ops_split : (ops : List (HloOp τ sig (Elt F))) = ops_1 ++ ops_2 ++ ops_3 ++ ops_4 ++ ops_5 ++ ops_6 ++ ops_7 ++ ops_8 := rfl

end Cert.ReferenceIdeal.ValueP

end
-- ==== Proof.RefRunStaged.lean ====
/-
  The reference's run, stage by stage.

  The reference is a straight line of 128 host operations. Its list is read in eight consecutive pieces, cut where an
  inlined function begins and ends; for each piece, from ANY buffer contents in which the piece's inputs hold the
  stages computed so far, the buffers it writes hold the next stages (the stage functions are the reference's
  operations composed one at a time). Chained from the launch contents, the result buffer ends at the last stage,
  the log-softmax of the logits, as a function of the six argument arrays; no operation writes an argument.
-/
import proofs.«407682_j28991029248693_1_alg».proof.Proof.RefOpsParts
import proofs.«407682_j28991029248693_1_alg».proof.Proof.RefRead
import Idealize.ShloMosaic.Lib.StableHlo.Run

set_option maxRecDepth 16384

noncomputable section

namespace Cert.ReferenceIdeal.RefStage

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Two lines of operations run one after the other: the contents after the second, from the contents after the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons]; exact ih _

/-- A value moved to a typed reference's buffer type and back is the value: the two transports are inverse. -/
theorem ofBuf_toBuf {T : BufTy} {Val : EltTy → Type} (x : TRef sig T) (v : T.Contents Val) : x.ofBuf (x.toBuf v) = v := by
  obtain ⟨r, rfl, _, _⟩ := x
  rfl

/-- Finishes, by rewriting, the results the one-pass simplification cannot reach: those inside a concatenate's operand list. -/
local macro "results_rw" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

variable (V : Valuation τ sig (Elt F))

/-- Piece 1: the edge weights (sigmoid times mask) and the gated features. -/
theorem stage1 (x0 : (⟨S100000x128, .f32⟩ : BufTy).Contents (Elt F)) (x2 : (⟨S600000, .f32⟩ : BufTy).Contents (Elt F)) (x3 : (⟨S128, .f32⟩ : BufTy).Contents (Elt F))
    (h0 : V (Proc.devRef .tc main_arg0) = x0) (h2 : V (Proc.devRef .tc main_arg2) = x2) (h3 : V (Proc.devRef .tc main_arg3) = x3) :
    after ops_1 V (Proc.devRef .tc main_v10) = val_main_v10 (F := F) x2
    ∧ after ops_1 V (Proc.devRef .tc main_v24) = val_main_v24 (F := F) x0 x3 := by
  refine ⟨?_, ?_⟩
  · after_results_simp; rw [h2]; rfl
  · after_results_simp; rw [h0, h3]; rfl

/-- Piece 2: row and column indices with the self-loops, the weights with the self-loops' ones, the degree's sign
    test and its inverse root, and the zero the select falls back to. -/
theorem stage2 (x1 : (⟨S2x600000, .i32⟩ : BufTy).Contents (Elt F)) (x2 : (⟨S600000, .f32⟩ : BufTy).Contents (Elt F))
    (h1 : V (Proc.devRef .tc main_arg1) = x1) (h10 : V (Proc.devRef .tc main_v10) = val_main_v10 (F := F) x2) :
    after ops_2 V (Proc.devRef .tc main_v30) = val_main_v30 (F := F) x1
    ∧ after ops_2 V (Proc.devRef .tc main_v31) = val_main_v31 (F := F) x1
    ∧ after ops_2 V (Proc.devRef .tc main_v33) = val_main_v33 (F := F) x2
    ∧ after ops_2 V (Proc.devRef .tc main_v38) = val_main_v38 (F := F) x1 x2
    ∧ after ops_2 V (Proc.devRef .tc main_v41) = val_main_v41 (F := F) x1 x2
    ∧ after ops_2 V (Proc.devRef .tc main_cst_9) = val_main_cst_9 (F := F) := by
  refine ⟨?_, ?_, ?_, ?_, ?_, ?_⟩
  · after_results_simp; results_rw; rw [h1]; rfl
  · after_results_simp; results_rw; rw [h1]; rfl
  · after_results_simp; results_rw; rw [h10]; rfl
  · after_results_simp; results_rw; rw [h1, h10]; rfl
  · after_results_simp; results_rw; rw [h1, h10]; rfl
  · after_results_simp; rfl

/-- Piece 3 (the inlined select): the inverse root where the degree is positive, zero elsewhere. -/
theorem stage3 (x1 : (⟨S2x600000, .i32⟩ : BufTy).Contents (Elt F)) (x2 : (⟨S600000, .f32⟩ : BufTy).Contents (Elt F))
    (h38 : V (Proc.devRef .tc main_v38) = val_main_v38 (F := F) x1 x2) (h41 : V (Proc.devRef .tc main_v41) = val_main_v41 (F := F) x1 x2)
    (hc9 : V (Proc.devRef .tc main_cst_9) = val_main_cst_9 (F := F)) :
    after ops_3 V (Proc.devRef .tc main_v42) = val_main_v42 (F := F) x1 x2 := by
  simp only [val_main_v42, val_main_call0_v1, val_main_call0_v0]
  generalize val_main_v38 (F := F) x1 x2 = A at h38 ⊢
  generalize val_main_v41 (F := F) x1 x2 = B at h41 ⊢
  generalize val_main_cst_9 (F := F) = C at hc9 ⊢
  have e38 : (TRef.of (T := ⟨S100000, .i1⟩) main_v38).ofBuf (V (Proc.devRef .tc main_v38)) = A := h38
  have e41 : (TRef.of (T := ⟨S100000, .f32⟩) main_v41).ofBuf (V (Proc.devRef .tc main_v41)) = B := h41
  have ec9 : (TRef.of (T := ⟨S_, .f32⟩) main_cst_9).ofBuf (V (Proc.devRef .tc main_cst_9)) = C := hc9
  have eOut : ∀ v : (⟨S100000, .f32⟩ : BufTy).Contents (Elt F), (TRef.of (T := ⟨S100000, .f32⟩) main_v42).toBuf v = v := fun _ => rfl
  after_results_simp
  simp only [ofBuf_toBuf]
  rw [eOut, e38, e41, ec9]

/-- Piece 4: the normalisation coefficient of every message, and the same as a column. -/
theorem stage4 (x1 : (⟨S2x600000, .i32⟩ : BufTy).Contents (Elt F)) (x2 : (⟨S600000, .f32⟩ : BufTy).Contents (Elt F))
    (h30 : V (Proc.devRef .tc main_v30) = val_main_v30 (F := F) x1) (h31 : V (Proc.devRef .tc main_v31) = val_main_v31 (F := F) x1)
    (h33 : V (Proc.devRef .tc main_v33) = val_main_v33 (F := F) x2) (h42 : V (Proc.devRef .tc main_v42) = val_main_v42 (F := F) x1 x2) :
    after ops_4 V (Proc.devRef .tc main_v58) = val_main_v58 (F := F) x1 x2
    ∧ after ops_4 V (Proc.devRef .tc main_v59) = val_main_v59 (F := F) x1 x2 := by
  refine ⟨?_, ?_⟩
  · after_results_simp; rw [h30, h31, h33, h42]; rfl
  · after_results_simp; rw [h30, h31, h33, h42]; rfl

/-- Piece 5: the first hop: gather, scale, scatter-add. -/
theorem stage5 (x0 : (⟨S100000x128, .f32⟩ : BufTy).Contents (Elt F)) (x1 : (⟨S2x600000, .i32⟩ : BufTy).Contents (Elt F)) (x2 : (⟨S600000, .f32⟩ : BufTy).Contents (Elt F)) (x3 : (⟨S128, .f32⟩ : BufTy).Contents (Elt F))
    (h24 : V (Proc.devRef .tc main_v24) = val_main_v24 (F := F) x0 x3) (h30 : V (Proc.devRef .tc main_v30) = val_main_v30 (F := F) x1)
    (h31 : V (Proc.devRef .tc main_v31) = val_main_v31 (F := F) x1) (h59 : V (Proc.devRef .tc main_v59) = val_main_v59 (F := F) x1 x2) :
    after ops_5 V (Proc.devRef .tc main_v71) = val_main_v71 (F := F) x0 x1 x2 x3 := by
  after_results_simp; rw [h24, h30, h31, h59]; rfl

/-- Piece 6: the second hop. -/
theorem stage6 (x0 : (⟨S100000x128, .f32⟩ : BufTy).Contents (Elt F)) (x1 : (⟨S2x600000, .i32⟩ : BufTy).Contents (Elt F)) (x2 : (⟨S600000, .f32⟩ : BufTy).Contents (Elt F)) (x3 : (⟨S128, .f32⟩ : BufTy).Contents (Elt F))
    (h30 : V (Proc.devRef .tc main_v30) = val_main_v30 (F := F) x1) (h31 : V (Proc.devRef .tc main_v31) = val_main_v31 (F := F) x1)
    (h58 : V (Proc.devRef .tc main_v58) = val_main_v58 (F := F) x1 x2) (h71 : V (Proc.devRef .tc main_v71) = val_main_v71 (F := F) x0 x1 x2 x3) :
    after ops_6 V (Proc.devRef .tc main_v84) = val_main_v84 (F := F) x0 x1 x2 x3 := by
  after_results_simp; rw [h30, h31, h58, h71]; rfl

/-- Piece 7: the logits: the propagated features against the transposed weight, plus the bias. -/
theorem stage7 (x0 : (⟨S100000x128, .f32⟩ : BufTy).Contents (Elt F)) (x1 : (⟨S2x600000, .i32⟩ : BufTy).Contents (Elt F)) (x2 : (⟨S600000, .f32⟩ : BufTy).Contents (Elt F)) (x3 : (⟨S128, .f32⟩ : BufTy).Contents (Elt F)) (x4 : (⟨S64x128, .f32⟩ : BufTy).Contents (Elt F)) (x5 : (⟨S64, .f32⟩ : BufTy).Contents (Elt F))
    (h4 : V (Proc.devRef .tc main_arg4) = x4) (h5 : V (Proc.devRef .tc main_arg5) = x5)
    (h84 : V (Proc.devRef .tc main_v84) = val_main_v84 (F := F) x0 x1 x2 x3) :
    after ops_7 V (Proc.devRef .tc main_v89) = val_main_v89 (F := F) x0 x1 x2 x3 x4 x5 := by
  after_results_simp; rw [h4, h5, h84]; rfl

/-- Piece 8 (the inlined log-softmax): from the logits, the result. -/
theorem stage8 (x0 : (⟨S100000x128, .f32⟩ : BufTy).Contents (Elt F)) (x1 : (⟨S2x600000, .i32⟩ : BufTy).Contents (Elt F)) (x2 : (⟨S600000, .f32⟩ : BufTy).Contents (Elt F)) (x3 : (⟨S128, .f32⟩ : BufTy).Contents (Elt F)) (x4 : (⟨S64x128, .f32⟩ : BufTy).Contents (Elt F)) (x5 : (⟨S64, .f32⟩ : BufTy).Contents (Elt F))
    (h89 : V (Proc.devRef .tc main_v89) = val_main_v89 (F := F) x0 x1 x2 x3 x4 x5) :
    after ops_8 V (Proc.devRef .tc main_v90) = val_main_v90 (F := F) x0 x1 x2 x3 x4 x5 := by
  simp only [val_main_v90, val_main_call1_v10, val_main_call1_v9, val_main_call1_v8, val_main_call1_v7, val_main_call1_cst_1, val_main_call1_v6, val_main_call1_v5, val_main_call1_v4, val_main_call1_v3, val_main_call1_v2, val_main_call1_v1, val_main_call1_cst_0, val_main_call1_v0, val_main_call1_cst]
  generalize val_main_v89 (F := F) x0 x1 x2 x3 x4 x5 = L at h89 ⊢
  have e89 : (TRef.of (T := ⟨S100000x64, .f32⟩) main_v89).ofBuf (V (Proc.devRef .tc main_v89)) = L := h89
  have eOut : ∀ v : (⟨S100000x64, .f32⟩ : BufTy).Contents (Elt F), (TRef.of (T := ⟨S100000x64, .f32⟩) main_v90).toBuf v = v := fun _ => rfl
  after_results_simp
  simp only [ofBuf_toBuf]
  rw [eOut, e89]

/-! ## What a piece leaves untouched -/

theorem keep_arg1 : after ops_1 V (Proc.devRef .tc main_arg1) = V (Proc.devRef .tc main_arg1) := by after_results_simp
theorem keep_v24 : after ops_4 (after ops_3 (after ops_2 V)) (Proc.devRef .tc main_v24) = V (Proc.devRef .tc main_v24) := by after_results_simp
theorem keep3 (r : Ref sig .tc) (hr : r = main_v30 ∨ r = main_v31 ∨ r = main_v33) :
    after ops_3 V (Proc.devRef .tc r) = V (Proc.devRef .tc r) := by
  rcases hr with rfl | rfl | rfl <;> after_results_simp
theorem keep4 (r : Ref sig .tc) (hr : r = main_v30 ∨ r = main_v31) :
    after ops_4 V (Proc.devRef .tc r) = V (Proc.devRef .tc r) := by
  rcases hr with rfl | rfl <;> after_results_simp
theorem keep5 (r : Ref sig .tc) (hr : r = main_v30 ∨ r = main_v31 ∨ r = main_v58) :
    after ops_5 V (Proc.devRef .tc r) = V (Proc.devRef .tc r) := by
  rcases hr with rfl | rfl | rfl <;> after_results_simp
theorem keep_args (r : Ref sig .tc) (hr : r = main_arg4 ∨ r = main_arg5) :
    after ops_6 (after ops_5 (after ops_4 (after ops_3 (after ops_2 (after ops_1 V))))) (Proc.devRef .tc r) = V (Proc.devRef .tc r) := by
  rcases hr with rfl | rfl <;> after_results_simp

/-! ## The eight pieces chained -/

/-- From ANY contents holding the six argument arrays, after the eight pieces the result buffer holds the last stage. -/
theorem value_of (x0 : (⟨S100000x128, .f32⟩ : BufTy).Contents (Elt F)) (x1 : (⟨S2x600000, .i32⟩ : BufTy).Contents (Elt F)) (x2 : (⟨S600000, .f32⟩ : BufTy).Contents (Elt F)) (x3 : (⟨S128, .f32⟩ : BufTy).Contents (Elt F)) (x4 : (⟨S64x128, .f32⟩ : BufTy).Contents (Elt F)) (x5 : (⟨S64, .f32⟩ : BufTy).Contents (Elt F))
    (h0 : V (Proc.devRef .tc main_arg0) = x0) (h1 : V (Proc.devRef .tc main_arg1) = x1) (h2 : V (Proc.devRef .tc main_arg2) = x2)
    (h3 : V (Proc.devRef .tc main_arg3) = x3) (h4 : V (Proc.devRef .tc main_arg4) = x4) (h5 : V (Proc.devRef .tc main_arg5) = x5) :
    after ops_8 (after ops_7 (after ops_6 (after ops_5 (after ops_4 (after ops_3 (after ops_2 (after ops_1 V))))))) (Proc.devRef .tc main_v90)
      = val_main_v90 (F := F) x0 x1 x2 x3 x4 x5 := by
  obtain ⟨s10, s24⟩ := stage1 V x0 x2 x3 h0 h2 h3
  obtain ⟨s30, s31, s33, s38, s41, sc9⟩ := stage2 (after ops_1 V) x1 x2 ((keep_arg1 V).trans h1) s10
  have s42 := stage3 (after ops_2 (after ops_1 V)) x1 x2 s38 s41 sc9
  obtain ⟨s58, s59⟩ := stage4 (after ops_3 (after ops_2 (after ops_1 V))) x1 x2
    ((keep3 _ main_v30 (.inl rfl)).trans s30) ((keep3 _ main_v31 (.inr (.inl rfl))).trans s31)
    ((keep3 _ main_v33 (.inr (.inr rfl))).trans s33) s42
  have k30 := (keep4 (after ops_3 (after ops_2 (after ops_1 V))) main_v30 (.inl rfl)).trans ((keep3 _ main_v30 (.inl rfl)).trans s30)
  have k31 := (keep4 (after ops_3 (after ops_2 (after ops_1 V))) main_v31 (.inr rfl)).trans ((keep3 _ main_v31 (.inr (.inl rfl))).trans s31)
  have s71 := stage5 (after ops_4 (after ops_3 (after ops_2 (after ops_1 V)))) x0 x1 x2 x3
    ((keep_v24 (after ops_1 V)).trans s24) k30 k31 s59
  have s84 := stage6 (after ops_5 (after ops_4 (after ops_3 (after ops_2 (after ops_1 V))))) x0 x1 x2 x3
    ((keep5 _ main_v30 (.inl rfl)).trans k30) ((keep5 _ main_v31 (.inr (.inl rfl))).trans k31)
    ((keep5 _ main_v58 (.inr (.inr rfl))).trans s58) s71
  have s89 := stage7 (after ops_6 (after ops_5 (after ops_4 (after ops_3 (after ops_2 (after ops_1 V)))))) x0 x1 x2 x3 x4 x5
    ((keep_args V main_arg4 (.inl rfl)).trans h4) ((keep_args V main_arg5 (.inr rfl)).trans h5) s84
  exact stage8 _ x0 x1 x2 x3 x4 x5 s89

/-! ## The run -/

set_option maxRecDepth 8192 in
set_option maxHeartbeats 51200000 in
/-- On every device, from any memory with zero counters: every weakly fair execution of the reference terminates
    with the result buffer at the last stage of the argument arrays' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v90)
        = val_main_v90 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v90).trans (by
        show after ops (launchContents m c) (Proc.devRef .tc main_v90) = _
        rw [ops_split]
        simp only [after_append]
        exact value_of (launchContents m c) _ _ _ _ _ _ rfl rfl rfl rfl rfl rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefStage

end
-- ==== Proof.lean ====
/-
  The certificate: a two-hop graph convolution with edge and feature gating, a linear layer and a log-softmax,
  as a Pallas program of four regions among host gathers and scatter-adds, against its jnp reference, over the
  extended reals.

  Both programs compute, from the same six arrays: edge weights sigmoid(w)·[|w| > 0] and a feature gate of the
  same form; the gated features x·gate; the symmetric normalisation coefficients of the graph with self-loops,
  from the degrees' inverse roots; two hops of "gather rows by source index, scale by the coefficient, scatter-add
  by target index"; logits by the transposed weight and the bias; the shifted log-softmax of every row.  The
  kernel computes the products and the last layer blockwise in its regions and everything else on the host with
  the reference's own operations, so the two results are the same function of the arguments, stage by stage; two
  places need an argument.  The kernel scales a message as feature × coefficient where the reference has
  coefficient × feature: the product of extended reals commutes.  The kernel gathers rows with a fill for
  out-of-range indices where the reference's indexing clamps: the two agree exactly where every source index lies
  in range of the 100000 rows it indexes, which is the precondition's added conjunct; there the in-bounds mask is
  all ones and the fill is never taken.  No law needs finiteness.

  The three programs run (the frames) by the generated frame certificates and the reference's run read stage by
  stage; the idealization rewrote nothing, so it is the program's own text read at the ideal instance.
-/
import proofs.«407682_j28991029248693_1_alg».proof.Defs
import proofs.«407682_j28991029248693_1_alg».proof.Proof.Gen.Kernel
import proofs.«407682_j28991029248693_1_alg».proof.Proof.Gen.Kernel.Skeleton
import proofs.«407682_j28991029248693_1_alg».proof.Proof.Gen.Kernel.Launch
import proofs.«407682_j28991029248693_1_alg».proof.Proof.Gen.Kernel.Points
import proofs.«407682_j28991029248693_1_alg».proof.Proof.Gen.Kernel.Frame
import proofs.«407682_j28991029248693_1_alg».proof.Proof.Gen.KernelIdeal
import proofs.«407682_j28991029248693_1_alg».proof.Proof.Gen.KernelIdeal.Skeleton
import proofs.«407682_j28991029248693_1_alg».proof.Proof.Gen.KernelIdeal.Launch
import proofs.«407682_j28991029248693_1_alg».proof.Proof.Gen.KernelIdeal.Points
import proofs.«407682_j28991029248693_1_alg».proof.Proof.Gen.KernelIdeal.Frame
import proofs.«407682_j28991029248693_1_alg».proof.Proof.Gen.ReferenceIdeal
import proofs.«407682_j28991029248693_1_alg».proof.Proof.Gen.Pre_finite_inputs
import proofs.«407682_j28991029248693_1_alg».proof.Proof.KernelRun
import proofs.«407682_j28991029248693_1_alg».proof.Proof.KernelChain
import proofs.«407682_j28991029248693_1_alg».proof.Proof.RefRunStaged
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.RefStage.run (F := Ideal) m ρ)

/-- The ideal pass rewrote no operation. -/
theorem preserves : Cert.preserves_Kernel_KernelIdeal := trivial

/-- From memories agreeing on the arguments both programs end with the same result: the reference's last stage of
    the argument arrays — the kernel's by the boundary-by-boundary reading of its run under the precondition, the
    reference's by its run read stage by stage. -/
theorem algebraic : Cert.algebraic_KernelIdeal_ReferenceIdeal := by
  intro m ρ m' ρ' hpre hagree
  refine ⟨fun c => Cert.ReferenceIdeal.ReadP.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Val.kernel_value m ρ c (hpre c)), (h c).2⟩)
      (Cert.KernelIdeal.Gen.run_result m ρ)
  · refine (θ_run Cert.ReferenceIdeal.defs _ _).mono (fun r h c => ⟨(h c).1.trans ?_, (h c).2⟩)
      (Cert.ReferenceIdeal.RefStage.run (F := Ideal) m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
